-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v66)) (v1 : (c : Dev Cert.KernelIdeal.nD) → Buf (Elt Ideal) ((c.tc : Thread Cert.KernelIdeal.nD Cert.KernelIdeal.τ).loc Cert.KernelIdeal.main_v67)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_v67) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_v96) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S64x1 .f32) (main_arg9 : FVec F S1 .f32) (main_v33 : IVec S_ 1) : IVec S_ 1 :=
  let main_v34 : FVec F S64x1 .f32 := Host.absf main_arg8
  let main_cst_12 : FVec F S_ .f32 := constant S_ .f32 0x7F800000#32
  let main_v35 : FVec F S64x1 .f32 := broadcastInDim S64x1 ![] bcast_S_S64x1 main_cst_12
  let main_v36 : IVec S64x1 1 := cmpf .olt main_v34 main_v35
  let main_c_13 : IVec S_ 1 := constantI S_ 1 1#1
  let main_v37 : IVec S_ 1 := (fun x v => Host.reduce IntOp.andi x v reducesTo_S64x1_S_d0_1 h_S_) main_v36 main_c_13
  let main_v38 : IVec S_ 1 := andi main_v33 main_v37
  let main_v39 : FVec F S1 .f32 := Host.absf main_arg9
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg5 : FVec F S64 .f32) (main_arg6 : FVec F S64x1 .f32) (main_arg7 : FVec F S1 .f32) (main_arg8 : FVec F S64x1 .f32) (main_arg9 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x1 .f32 := Host.absf main_arg6
  let main_cst_8 : FVec F S_ .f32 := constant S_ .f32 0x7F800000#32
  let main_v25 : FVec F S64x1 .f32 := broadcastInDim S64x1 ![] bcast_S_S64x1 main_cst_8
  let main_v26 : IVec S64x1 1 := cmpf .olt main_v24 main_v25
  let main_c_9 : IVec S_ 1 := constantI S_ 1 1#1
  let main_v27 : IVec S_ 1 := (fun x v => Host.reduce IntOp.andi x v reducesTo_S64x1_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  fn_part2 (F := F) main_arg8 main_arg9 main_v33

def fn {F : FTy → Type} [FloatOps F] (main_arg0 : FVec F S100000x128 .f32) (main_arg1 : IVec S2x3200000 32) (main_arg2 : FVec F S128x64 .f32) (main_arg3 : FVec F S64 .f32) (main_arg4 : FVec F S64x64 .f32) (main_arg5 : FVec F S64 .f32) (main_arg6 : FVec F S64x1 .f32) (main_arg7 : FVec F S1 .f32) (main_arg8 : FVec F S64x1 .f32) (main_arg9 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_arg8 main_arg9 main_v13 main_v16
-- ==== Kernel.lean ====
abbrev S100000x128 : Shape := ⟨2, ![100000, 128]⟩
abbrev S2x3200000 : Shape := ⟨2, ![2, 3200000]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x64 : Shape := ⟨2, ![100000, 64]⟩
abbrev S5000x128 : Shape := ⟨2, ![5000, 128]⟩
abbrev S5000x64 : Shape := ⟨2, ![5000, 64]⟩
abbrev S3300000x64 : Shape := ⟨2, ![3300000, 64]⟩
abbrev S1x64 : Shape := ⟨2, ![1, 64]⟩
abbrev S64x2 : Shape := ⟨2, ![64, 2]⟩
abbrev S2 : Shape := ⟨1, ![2]⟩
abbrev S1x2 : Shape := ⟨2, ![1, 2]⟩
abbrev S100000x2 : Shape := ⟨2, ![100000, 2]⟩
abbrev S5000x2 : Shape := ⟨2, ![5000, 2]⟩
abbrev S100000x1 : Shape := ⟨2, ![100000, 1]⟩

abbrev nBuf : Space → Nat
  | .hbm => 94
  | .vmem => 26
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x1, .f32⟩
  | .hbm, ⟨7, _⟩ => ⟨S1, .f32⟩
  | .hbm, ⟨8, _⟩ => ⟨S64x1, .f32⟩
  | .hbm, ⟨9, _⟩ => ⟨S1, .f32⟩
  | .hbm, ⟨10, _⟩ => ⟨S100000, .i32⟩
  | .hbm, ⟨11, _⟩ => ⟨S1x3200000, .i32⟩
  | .hbm, ⟨12, _⟩ => ⟨S3200000, .i32⟩
  | .hbm, ⟨13, _⟩ => ⟨S3300000, .i32⟩
  | .hbm, ⟨14, _⟩ => ⟨S1x3200000, .i32⟩
  | .hbm, ⟨15, _⟩ => ⟨S3200000, .i32⟩
  | .hbm, ⟨16, _⟩ => ⟨S3300000, .i32⟩
  | .hbm, ⟨17, _⟩ => ⟨S_, .f32⟩
  | .hbm, ⟨18, _⟩ => ⟨S3300000, .f32⟩
  | .hbm, ⟨19, _⟩ => ⟨S_, .f32⟩
  | .hbm, ⟨20, _⟩ => ⟨S100000, .f32⟩
  | .hbm, ⟨21, _⟩ => ⟨S3300000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .i32⟩
  | .hbm, ⟨32, _⟩ => ⟨S3300000, .i32⟩
  | .hbm, ⟨33, _⟩ => ⟨S3300000, .i1⟩
  | .hbm, ⟨34, _⟩ => ⟨S_, .i32⟩
  | .hbm, ⟨35, _⟩ => ⟨S3300000, .i32⟩
  | .hbm, ⟨36, _⟩ => ⟨S3300000, .i32⟩
  | .hbm, ⟨37, _⟩ => ⟨S3300000, .i32⟩
  | .hbm, ⟨38, _⟩ => ⟨S3300000x1, .i32⟩
  | .hbm, ⟨39, _⟩ => ⟨S3300000, .f32⟩
  | .hbm, ⟨40, _⟩ => ⟨S_, .i32⟩
  | .hbm, ⟨41, _⟩ => ⟨S3300000, .i32⟩
  | .hbm, ⟨42, _⟩ => ⟨S3300000, .i1⟩
  | .hbm, ⟨43, _⟩ => ⟨S_, .i32⟩
  | .hbm, ⟨44, _⟩ => ⟨S3300000, .i32⟩
  | .hbm, ⟨45, _⟩ => ⟨S3300000, .i32⟩
  | .hbm, ⟨46, _⟩ => ⟨S3300000, .i32⟩
  | .hbm, ⟨47, _⟩ => ⟨S3300000x1, .i32⟩
  | .hbm, ⟨48, _⟩ => ⟨S3300000, .f32⟩
  | .hbm, ⟨49, _⟩ => ⟨S3300000, .f32⟩
  | .hbm, ⟨50, _⟩ => ⟨S100000x64, .f32⟩
  | .hbm, ⟨51, _⟩ => ⟨S_, .i32⟩
  | .hbm, ⟨52, _⟩ => ⟨S3300000, .i32⟩
  | .hbm, ⟨53, _⟩ => ⟨S3300000, .i1⟩
  | .hbm, ⟨54, _⟩ => ⟨S_, .i32⟩
  | .hbm, ⟨55, _⟩ => ⟨S3300000, .i32⟩
  | .hbm, ⟨56, _⟩ => ⟨S3300000, .i32⟩
  | .hbm, ⟨57, _⟩ => ⟨S3300000, .i32⟩
  | .hbm, ⟨58, _⟩ => ⟨S3300000x1, .i32⟩
  | .hbm, ⟨59, _⟩ => ⟨S3300000x64, .f32⟩
  | .hbm, ⟨60, _⟩ => ⟨S3300000x1, .f32⟩
  | .hbm, ⟨61, _⟩ => ⟨S3300000x64, .f32⟩
  | .hbm, ⟨62, _⟩ => ⟨S3300000x64, .f32⟩
  | .hbm, ⟨63, _⟩ => ⟨S_, .f32⟩
  | .hbm, ⟨64, _⟩ => ⟨S100000x64, .f32⟩
  | .hbm, ⟨65, _⟩ => ⟨S3300000x1, .i32⟩
  | .hbm, ⟨66, _⟩ => ⟨S100000x64, .f32⟩
  | .hbm, ⟨67, _⟩ => ⟨S1x64, .f32⟩
  | .hbm, ⟨68, _⟩ => ⟨S100000x64, .f32⟩
  | .hbm, ⟨69, _⟩ => ⟨S100000x64, .f32⟩
  | .hbm, ⟨70, _⟩ => ⟨S_, .i32⟩
  | .hbm, ⟨71, _⟩ => ⟨S3300000, .i32⟩
  | .hbm, ⟨72, _⟩ => ⟨S3300000, .i1⟩
  | .hbm, ⟨73, _⟩ => ⟨S_, .i32⟩
  | .hbm, ⟨74, _⟩ => ⟨S3300000, .i32⟩
  | .hbm, ⟨75, _⟩ => ⟨S3300000, .i32⟩
  | .hbm, ⟨76, _⟩ => ⟨S3300000, .i32⟩
  | .hbm, ⟨77, _⟩ => ⟨S3300000x1, .i32⟩
  | .hbm, ⟨78, _⟩ => ⟨S3300000x64, .f32⟩
  | .hbm, ⟨79, _⟩ => ⟨S3300000x1, .f32⟩
  | .hbm, ⟨80, _⟩ => ⟨S3300000x64, .f32⟩
  | .hbm, ⟨81, _⟩ => ⟨S3300000x64, .f32⟩
  | .hbm, ⟨82, _⟩ => ⟨S_, .f32⟩
  | .hbm, ⟨83, _⟩ => ⟨S100000x64, .f32⟩
  | .hbm, ⟨84, _⟩ => ⟨S3300000x1, .i32⟩
  | .hbm, ⟨85, _⟩ => ⟨S100000x64, .f32⟩
  | .hbm, ⟨86, _⟩ => ⟨S1x64, .f32⟩
  | .hbm, ⟨87, _⟩ => ⟨S100000x64, .f32⟩
  | .hbm, ⟨88, _⟩ => ⟨S64x2, .f32⟩
  | .hbm, ⟨89, _⟩ => ⟨S2, .f32⟩
  | .hbm, ⟨90, _⟩ => ⟨S1x2, .f32⟩
  | .hbm, ⟨91, _⟩ => ⟨S100000x2, .f32⟩
  | .hbm, ⟨92, _⟩ => ⟨S100000x1, .f32⟩
  | .hbm, ⟨93, _⟩ => ⟨S100000x1, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S1x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S64x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S64x2, .f32⟩
  | .local _ .vmem, ⟨23, _⟩ => ⟨S1x2, .f32⟩
  | .local _ .vmem, ⟨24, _⟩ => ⟨S5000x2, .f32⟩
  | .local _ .vmem, ⟨25, _⟩ => ⟨S5000x2, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_c_9 : Ref sig .tc := ⟨.hbm, 70, rfl⟩
abbrev main_v47 : Ref sig .tc := ⟨.hbm, 71, rfl⟩
abbrev main_v48 : Ref sig .tc := ⟨.hbm, 72, rfl⟩
abbrev main_c_10 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_cst_11 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg3_0 : Ref sig .tc := ⟨.vmem, 24, rfl⟩
abbrev cc4_stg3_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem3_0 : DmaSem sig := 24
abbrev cc4_sem3_1 : DmaSem sig := 25

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x2 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x2 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x2 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  concatenates_S64x1_S64x1_S64x2_d1 : Shape.Concatenates [S64x1, S64x1] S64x2 1
  concatenates_S1_S1_S2_d0 : Shape.Concatenates [S1, S1] S2 0
  shapeCasts_S2_S1x2 : S2.ShapeCasts S1x2
  inb_S64x2_S64x2_0_0 : ∀ a, (![0, 0] : Fin 2 → Nat) a + S64x2.size a ≤ S64x2.size a
  h_S64x2 : 0 < S64x2.numel
  shapeCasts_S64x2_S64x2 : S64x2.ShapeCasts S64x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S5000x2 : S1x2.Broadcasts S5000x2
  inb_S5000x2_S5000x2_0_0 : ∀ a, (![0, 0] : Fin 2 → Nat) a + S5000x2.size a ≤ S5000x2.size a
  h_S5000x2 : 0 < S5000x2.numel
  slices_S100000x2_S100000x1_0_0 : S100000x2.Slices ![0, 0] S100000x1
  slices_S100000x2_S100000x1_0_1 : S100000x2.Slices ![0, 1] S100000x1
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S5000x128_S128x64_S5000x64_1_0_0_1_n_n_wf : DotDims.WF S5000x128 S128x64 S5000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S5000x64_S64x64_S5000x64_1_0_0_1_n_n_wf : DotDims.WF S5000x64 S64x64 S5000x64 [1] [0] [0] [1] [] []
  dot_S5000x64_S64x2_S5000x2_1_0_0_1_n_n_wf : DotDims.WF S5000x64 S64x2 S5000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S100000x64.size a
  hwx3_2 : ∀ i : grid3.Coords, EltTy.bits .f32 = 32 ∨ (Rect.block (s := S100000x64) S5000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x2.size a ≤ S64x2.size a
  hwx4_1 : ∀ i : grid4.Coords, EltTy.bits .f32 = 32 ∨ (Rect.block (s := S64x2) S64x2.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x2.size a ≤ S1x2.size a
  hwx4_2 : ∀ i : grid4.Coords, EltTy.bits .f32 = 32 ∨ (Rect.block (s := S1x2) S1x2.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x2.size a ≤ S100000x2.size a
  hwx4_3 : ∀ i : grid4.Coords, EltTy.bits .f32 = 32 ∨ (Rect.block (s := S100000x2) S5000x2.size (cc4_transform_3 i) (hinb4_3 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x2_S5000x2_1_0_0_1_n_n : DotDims S5000x64 S64x2 S5000x2 where
  lhsContracting := [1]
  rhsContracting := [0]
  lhsNonContracting := [0]
  rhsNonContracting := [1]
  lhsBatch := []
  rhsBatch := []
  wf := dot_S5000x64_S64x2_S5000x2_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v61) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v62) S64x2.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v64) S1x2.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v65) S5000x2.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S100000x64 : Shape := ⟨2, ![100000, 64]⟩
abbrev S_ : Shape := ⟨0, ![]⟩
abbrev S3300000x1 : Shape := ⟨2, ![3300000, 1]⟩
abbrev S3300000x64 : Shape := ⟨2, ![3300000, 64]⟩
abbrev S1x64 : Shape := ⟨2, ![1, 64]⟩
abbrev S100000x1 : Shape := ⟨2, ![100000, 1]⟩
abbrev S1x1 : Shape := ⟨2, ![1, 1]⟩

abbrev nBuf : Space → Nat
  | .hbm => 137
  | .vmem => 0
  | .smem => 0
  | _ => 0

abbrev hbmTy0_0 (i : Nat) : BufTy := match i % 128 with
  | 0 => ⟨S100000x128, .f32⟩
  | 1 => ⟨S2x3200000, .i32⟩
  | 2 => ⟨S128x64, .f32⟩
  | 3 => ⟨S64, .f32⟩
  | 4 => ⟨S64x64, .f32⟩
  | 5 => ⟨S64, .f32⟩
  | 6 => ⟨S64x1, .f32⟩
  | 7 => ⟨S1, .f32⟩
  | 8 => ⟨S64x1, .f32⟩
  | 9 => ⟨S1, .f32⟩
  | 10 => ⟨S100000, .i32⟩
  | 11 => ⟨S1x3200000, .i32⟩
  | 12 => ⟨S3200000, .i32⟩
  | 13 => ⟨S3300000, .i32⟩
  | 14 => ⟨S1x3200000, .i32⟩
  | 15 => ⟨S3200000, .i32⟩
  | 16 => ⟨S3300000, .i32⟩
  | 17 => ⟨S100000x64, .f32⟩
  | 18 => ⟨S_, .f32⟩
  | 19 => ⟨S3300000, .f32⟩
  | 20 => ⟨S_, .f32⟩
  | 21 => ⟨S100000, .f32⟩
  | 22 => ⟨S3300000x1, .i32⟩
  | 23 => ⟨S100000, .f32⟩
  | 24 => ⟨S_, .f32⟩
  | 25 => ⟨S100000, .f32⟩
  | 26 => ⟨S100000, .i1⟩
  | 27 => ⟨S100000, .f32⟩
  | 28 => ⟨S_, .f32⟩
  | 29 => ⟨S_, .f32⟩
  | 30 => ⟨S100000, .f32⟩
  | 31 => ⟨S100000, .f32⟩
  | 32 => ⟨S_, .i32⟩
  | 33 => ⟨S3300000, .i32⟩
  | 34 => ⟨S3300000, .i1⟩
  | 35 => ⟨S_, .i32⟩
  | 36 => ⟨S3300000, .i32⟩
  | 37 => ⟨S3300000, .i32⟩
  | 38 => ⟨S3300000, .i32⟩
  | 39 => ⟨S3300000x1, .i32⟩
  | 40 => ⟨S3300000, .f32⟩
  | 41 => ⟨S_, .i32⟩
  | 42 => ⟨S3300000, .i32⟩
  | 43 => ⟨S3300000, .i1⟩
  | 44 => ⟨S_, .i32⟩
  | 45 => ⟨S3300000, .i32⟩
  | 46 => ⟨S3300000, .i32⟩
  | 47 => ⟨S3300000, .i32⟩
  | 48 => ⟨S3300000x1, .i32⟩
  | 49 => ⟨S3300000, .f32⟩
  | 50 => ⟨S3300000, .f32⟩
  | 51 => ⟨S_, .i32⟩
  | 52 => ⟨S3300000, .i32⟩
  | 53 => ⟨S3300000, .i1⟩
  | 54 => ⟨S_, .i32⟩
  | 55 => ⟨S3300000, .i32⟩
  | 56 => ⟨S3300000, .i32⟩
  | 57 => ⟨S3300000, .i32⟩
  | 58 => ⟨S3300000x1, .i32⟩
  | 59 => ⟨S3300000x64, .f32⟩
  | 60 => ⟨S3300000x1, .f32⟩
  | 61 => ⟨S3300000x64, .f32⟩
  | 62 => ⟨S3300000x64, .f32⟩
  | 63 => ⟨S_, .f32⟩
  | 64 => ⟨S100000x64, .f32⟩
  | 65 => ⟨S3300000x1, .i32⟩
  | 66 => ⟨S100000x64, .f32⟩
  | 67 => ⟨S1x64, .f32⟩
  | 68 => ⟨S100000x64, .f32⟩
  | 69 => ⟨S100000x64, .f32⟩
  | 70 => ⟨S_, .f32⟩
  | 71 => ⟨S100000x64, .f32⟩
  | 72 => ⟨S100000x64, .f32⟩
  | 73 => ⟨S100000x64, .f32⟩
  | 74 => ⟨S_, .f32⟩
  | 75 => ⟨S3300000, .f32⟩
  | 76 => ⟨S_, .f32⟩
  | 77 => ⟨S100000, .f32⟩
  | 78 => ⟨S3300000x1, .i32⟩
  | 79 => ⟨S100000, .f32⟩
  | 80 => ⟨S_, .f32⟩
  | 81 => ⟨S100000, .f32⟩
  | 82 => ⟨S100000, .i1⟩
  | 83 => ⟨S100000, .f32⟩
  | 84 => ⟨S_, .f32⟩
  | 85 => ⟨S_, .f32⟩
  | 86 => ⟨S100000, .f32⟩
  | 87 => ⟨S100000, .f32⟩
  | 88 => ⟨S_, .i32⟩
  | 89 => ⟨S3300000, .i32⟩
  | 90 => ⟨S3300000, .i1⟩
  | 91 => ⟨S_, .i32⟩
  | 92 => ⟨S3300000, .i32⟩
  | 93 => ⟨S3300000, .i32⟩
  | 94 => ⟨S3300000, .i32⟩
  | 95 => ⟨S3300000x1, .i32⟩
  | 96 => ⟨S3300000, .f32⟩
  | 97 => ⟨S_, .i32⟩
  | 98 => ⟨S3300000, .i32⟩
  | 99 => ⟨S3300000, .i1⟩
  | 100 => ⟨S_, .i32⟩
  | 101 => ⟨S3300000, .i32⟩
  | 102 => ⟨S3300000, .i32⟩
  | 103 => ⟨S3300000, .i32⟩
  | 104 => ⟨S3300000x1, .i32⟩
  | 105 => ⟨S3300000, .f32⟩
  | 106 => ⟨S3300000, .f32⟩
  | 107 => ⟨S_, .i32⟩
  | 108 => ⟨S3300000, .i32⟩
  | 109 => ⟨S3300000, .i1⟩
  | 110 => ⟨S_, .i32⟩
  | 111 => ⟨S3300000, .i32⟩
  | 112 => ⟨S3300000, .i32⟩
  | 113 => ⟨S3300000, .i32⟩
  | 114 => ⟨S3300000x1, .i32⟩
  | 115 => ⟨S3300000x64, .f32⟩
  | 116 => ⟨S3300000x1, .f32⟩
  | 117 => ⟨S3300000x64, .f32⟩
  | 118 => ⟨S3300000x64, .f32⟩
  | 119 => ⟨S_, .f32⟩
  | 120 => ⟨S100000x64, .f32⟩
  | 121 => ⟨S3300000x1, .i32⟩
  | 122 => ⟨S100000x64, .f32⟩
  | 123 => ⟨S1x64, .f32⟩
  | 124 => ⟨S100000x64, .f32⟩
  | 125 => ⟨S100000x64, .f32⟩
  | 126 => ⟨S_, .f32⟩
  | 127 => ⟨S100000x64, .f32⟩
  | _ => ⟨S100000x128, .f32⟩

abbrev hbmTy0_1 (i : Nat) : BufTy := match i % 128 with
  | 0 => ⟨S100000x64, .f32⟩
  | 1 => ⟨S100000x1, .f32⟩
  | 2 => ⟨S1x1, .f32⟩
  | 3 => ⟨S100000x1, .f32⟩
  | 4 => ⟨S100000x1, .f32⟩
  | 5 => ⟨S100000x1, .f32⟩
  | 6 => ⟨S1x1, .f32⟩
  | 7 => ⟨S100000x1, .f32⟩
  | 8 => ⟨S100000x1, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v15 : Ref sig .tc := ⟨.hbm, 31, rfl⟩
abbrev main_c : Ref sig .tc := ⟨.hbm, 32, rfl⟩
abbrev main_v16 : Ref sig .tc := ⟨.hbm, 33, rfl⟩
abbrev main_v17 : Ref sig .tc := ⟨.hbm, 34, rfl⟩
abbrev main_c_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_c_4 : Ref sig .tc := ⟨.hbm, 41, rfl⟩
abbrev main_v23 : Ref sig .tc := ⟨.hbm, 42, rfl⟩
abbrev main_v24 : Ref sig .tc := ⟨.hbm, 43, rfl⟩
abbrev main_c_5 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_call1_cst : Ref sig .tc := ⟨.hbm, 70, rfl⟩
abbrev main_call1_v0 : Ref sig .tc := ⟨.hbm, 71, rfl⟩
abbrev main_v47 : Ref sig .tc := ⟨.hbm, 72, rfl⟩
abbrev main_v48 : Ref sig .tc := ⟨.hbm, 73, rfl⟩
abbrev main_cst_9 : Ref sig .tc := ⟨.hbm, 74, rfl⟩
abbrev main_v49 : Ref sig .tc := ⟨.hbm, 75, rfl⟩
abbrev main_cst_10 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_cst_11 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_cst_12 : Ref sig .tc := ⟨.hbm, 84, rfl⟩
abbrev main_call2_v0 : Ref sig .tc := ⟨.hbm, 85, rfl⟩
abbrev main_call2_v1 : Ref sig .tc := ⟨.hbm, 86, rfl⟩
abbrev main_v56 : Ref sig .tc := ⟨.hbm, 87, rfl⟩
abbrev main_c_13 : Ref sig .tc := ⟨.hbm, 88, rfl⟩
abbrev main_v57 : Ref sig .tc := ⟨.hbm, 89, rfl⟩
abbrev main_v58 : Ref sig .tc := ⟨.hbm, 90, rfl⟩
abbrev main_c_14 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_c_15 : Ref sig .tc := ⟨.hbm, 97, rfl⟩
abbrev main_v64 : Ref sig .tc := ⟨.hbm, 98, rfl⟩
abbrev main_v65 : Ref sig .tc := ⟨.hbm, 99, rfl⟩
abbrev main_c_16 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_c_17 : Ref sig .tc := ⟨.hbm, 107, rfl⟩
abbrev main_v72 : Ref sig .tc := ⟨.hbm, 108, rfl⟩
abbrev main_v73 : Ref sig .tc := ⟨.hbm, 109, rfl⟩
abbrev main_c_18 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_cst_19 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_call3_cst : Ref sig .tc := ⟨.hbm, 126, rfl⟩
abbrev main_call3_v0 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  dot_S100000x128_S128x64_S100000x64_1_0_0_1_n_n_wf : DotDims.WF S100000x128 S128x64 S100000x64 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S100000x64_S64x64_S100000x64_1_0_0_1_n_n_wf : DotDims.WF S100000x64 S64x64 S100000x64 [1] [0] [0] [1] [] []
  dot_S100000x64_S64x1_S100000x1_1_0_0_1_n_n_wf : DotDims.WF S100000x64 S64x1 S100000x1 [1] [0] [0] [1] [] []

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf

class Facts : Prop extends Facts₀ where

variable [Facts]
-- ==== Proof.Spec.lean ====
/-
  What the five dense stages of the two-layer graph convolution compute, index by index, over the extended reals.
  With N = 100000 nodes:
    * `rowsTimes A B`  — the matrix product of an [N, K] array with a [K, P] weight: entry (r, j) is ∑ₖ A[r,k]·B[k,j];
    * `biasRelu A b`   — a bias row added to every node's row, then the positive part: entry (r, j) is max (A[r,j] + b[j]) 0;
    * `headOut H W b`  — one output head: entry (r, 0) is ∑ₖ H[r,k]·W[k,0] + b[0].
  Both programs are the same composition of these three with the (shared) normalised neighbourhood sum between them.
-/
import Idealize.ShloMosaic.Lib.ValueIdx
import Idealize.ShloMosaic.PureOps.Ideal.Laws

noncomputable section

open scoped BigOperators

namespace Cert.Spec

open Idealize.ShloMosaic Idealize.ShloMosaic.ValueIdx

/-- Rows of `A` times `B`: entry (r, j) of the product is the sum over k of A[r,k]·B[k,j]. -/
def rowsTimes {K P : Nat} (A : FVec Ideal ⟨2, ![100000, K]⟩ .f32) (B : FVec Ideal ⟨2, ![K, P]⟩ .f32) :
    FVec Ideal ⟨2, ![100000, P]⟩ .f32 :=
  fun i => ∑ k : Fin K, A (ix2 (n0 := 100000) (n1 := K) ⟨(i 0).val, (i 0).isLt⟩ k) * B (ix2 (n0 := K) (n1 := P) k ⟨(i 1).val, (i 1).isLt⟩)

/-- The bias row `b` added to every row of `A`, then the positive part. -/
def biasRelu (A : FVec Ideal ⟨2, ![100000, 64]⟩ .f32) (b : FVec Ideal ⟨1, ![64]⟩ .f32) :
    FVec Ideal ⟨2, ![100000, 64]⟩ .f32 :=
  fun i => max (A i + b (ix1 (n := 64) ⟨(i 1).val, (i 1).isLt⟩)) (Ideal.ofBits .f32 0x00000000#32)

/-- One output head: the product with a one-column weight, plus the head's one bias entry. -/
def headOut (H : FVec Ideal ⟨2, ![100000, 64]⟩ .f32) (W : FVec Ideal ⟨2, ![64, 1]⟩ .f32) (b : FVec Ideal ⟨1, ![1]⟩ .f32) :
    FVec Ideal ⟨2, ![100000, 1]⟩ .f32 :=
  fun i => (∑ k : Fin 64, H (ix2 (n0 := 100000) (n1 := 64) ⟨(i 0).val, (i 0).isLt⟩ k) * W (ix2 (n0 := 64) (n1 := 1) k ⟨(i 1).val, (i 1).isLt⟩))
    + b (ix1 (n := 1) ⟨(i 1).val, (i 1).isLt⟩)

/-- A [1, 64] array read as the row it is. -/
def rowOf (b2 : FVec Ideal ⟨2, ![1, 64]⟩ .f32) : FVec Ideal ⟨1, ![64]⟩ .f32 :=
  fun j => b2 (ix2 (n0 := 1) (n1 := 64) 0 ⟨(j 0).val, (j 0).isLt⟩)

/-- Both heads at once: the product with the two-column weight, plus the [1, 2] bias row on every row. -/
def headsPair (H : FVec Ideal ⟨2, ![100000, 64]⟩ .f32) (W : FVec Ideal ⟨2, ![64, 2]⟩ .f32) (b : FVec Ideal ⟨2, ![1, 2]⟩ .f32) :
    FVec Ideal ⟨2, ![100000, 2]⟩ .f32 :=
  fun i => rowsTimes (K := 64) (P := 2) H W i + b (ix2 (n0 := 1) (n1 := 2) 0 ⟨(i 1).val, (i 1).isLt⟩)

end Cert.Spec

end
-- ==== Proof.Graph.lean ====
/-
  The graph side of the convolution, which both programs compute with the same host operations: from the edge list
  `e : i32[2, 3200000]` (row 0 the sources, row 1 the destinations) with one self loop per node appended,
    * `srcIdx e`, `dstIdx e` — the 3300000 source and destination node ids;
    * `wrap v` — a negative id counted from the end (id + 100000), as jnp indexing reads it;
    * `degree e` — how many edges end in each node; `invSqrtDeg e` — degree^(-1/2), and 0 where the degree is not positive;
    * `normW e` — one weight per edge, invSqrtDeg[src]·invSqrtDeg[dst];
    * `agg e h` — the normalised neighbourhood sum of a node feature array `h : f32[100000, 64]`: row d is the sum over
      the edges ending in d of normW·h[src].
  Nothing below is ever opened: a certificate only needs that the two programs apply the SAME function `agg e` to
  arrays it proves equal.
-/
import proofs.«101185_j16647293239617_1_alg».proof.Proof.Gen.KernelIdeal

noncomputable section

namespace Cert.Graph

open Cert.KernelIdeal Cert.KernelIdeal.Gen Idealize.ShloMosaic

variable {F : FTy → Type} [FloatOps F]

/-- A rank-1 array of 3300000 entries as a one-column rank-2 array. -/
def col {α : Type} (v : S3300000.Idx → α) : S3300000x1.Idx → α :=
  broadcastInDim S3300000x1 ![0] bcast_S3300000_S3300000x1_0 v

/-- The sources: row 0 of the edge list, then every node once (the self loops). -/
def srcIdx (e : (⟨S2x3200000, .i32⟩ : BufTy).Contents (Elt F)) : (⟨S3300000, .i32⟩ : BufTy).Contents (Elt F) :=
  concatenate S3300000 0 [⟨S3200000, (shapeCast _ (extractStridedSlice S1x3200000 ![0, 0] e slices_S2x3200000_S1x3200000_0_0) shapeCasts_S1x3200000_S3200000)⟩, ⟨S100000, (iotaInDim S100000 32 0)⟩] concatenates_S3200000_S100000_S3300000_d0

/-- The destinations: row 1 of the edge list, then every node once. -/
def dstIdx (e : (⟨S2x3200000, .i32⟩ : BufTy).Contents (Elt F)) : (⟨S3300000, .i32⟩ : BufTy).Contents (Elt F) :=
  concatenate S3300000 0 [⟨S3200000, (shapeCast _ (extractStridedSlice S1x3200000 ![1, 0] e slices_S2x3200000_S1x3200000_1_0) shapeCasts_S1x3200000_S3200000)⟩, ⟨S100000, (iotaInDim S100000 32 0)⟩] concatenates_S3200000_S100000_S3300000_d0

/-- A negative node id counts from the end. -/
def wrap (v : (⟨S3300000, .i32⟩ : BufTy).Contents (Elt F)) : (⟨S3300000, .i32⟩ : BufTy).Contents (Elt F) :=
  select (cmpi .slt v (broadcastInDim S3300000 ![] bcast_S_S3300000 (constantI S_ 32 0#32)))
    (addi v (broadcastInDim S3300000 ![] bcast_S_S3300000 (constantI S_ 32 100000#32))) v

/-- How many edges (self loops included) end in each node. -/
def degree (e : (⟨S2x3200000, .i32⟩ : BufTy).Contents (Elt F)) : (⟨S100000, .f32⟩ : BufTy).Contents (Elt F) :=
  Host.scatterAdd scatter_S100000_S3300000x1_S3300000_n_0_0_1
    (broadcastInDim S100000 ![] bcast_S_S100000 (constant S_ .f32 0x00000000#32))
    (col (dstIdx e))
    (broadcastInDim S3300000 ![] bcast_S_S3300000 (constant S_ .f32 0x3F800000#32))

/-- degree^(-1/2), and zero where the degree is not positive. -/
def invSqrtDeg (e : (⟨S2x3200000, .i32⟩ : BufTy).Contents (Elt F)) : (⟨S100000, .f32⟩ : BufTy).Contents (Elt F) :=
  select (cmpf .ogt (degree e) (broadcastInDim S100000 ![] bcast_S_S100000 (constant S_ .f32 0x00000000#32)))
    (Host.rsqrt (degree e))
    (broadcastInDim S100000 ![] bcast_S_S100000 (id (constant S_ .f32 0x00000000#32)))

/-- The weight of each edge: invSqrtDeg at its source times invSqrtDeg at its destination. -/
def normW (e : (⟨S2x3200000, .i32⟩ : BufTy).Contents (Elt F)) : (⟨S3300000, .f32⟩ : BufTy).Contents (Elt F) :=
  mulf (Host.gather gather_S100000_S3300000x1_S3300000_n_0_n_n_0_1_1 (invSqrtDeg e) (col (wrap (srcIdx e))))
    (Host.gather gather_S100000_S3300000x1_S3300000_n_0_n_n_0_1_1 (invSqrtDeg e) (col (wrap (dstIdx e))))

/-- The normalised neighbourhood sum: row d of the result is the sum, over the edges that end in d, of the edge's
    weight times the source node's row of `h`. -/
def agg (e : (⟨S2x3200000, .i32⟩ : BufTy).Contents (Elt F)) (h : (⟨S100000x64, .f32⟩ : BufTy).Contents (Elt F)) :
    (⟨S100000x64, .f32⟩ : BufTy).Contents (Elt F) :=
  Host.scatterAdd scatter_S100000x64_S3300000x1_S3300000x64_1_0_0_1
    (broadcastInDim S100000x64 ![] bcast_S_S100000x64 (constant S_ .f32 0x00000000#32))
    (col (dstIdx e))
    (mulf (Host.gather gather_S100000x64_S3300000x1_S3300000x64_1_0_n_n_0_1_164 h (col (wrap (srcIdx e))))
      (broadcastInDim S3300000x64 ![0, 1] bcast_S3300000x1_S3300000x64_0_1 (col (normW e))))

end Cert.Graph

end
-- ==== Proof.Model.lean ====
/-
  The whole network as one function of its inputs, over the extended reals: two rounds of
  "multiply by a weight, sum over the normalised neighbourhood, add a bias, take the positive part",
  then one linear head. Both programs compute `gcnOut x e W1 b1 W2 b2 Wh bh`, once for each of the two heads.
-/
import proofs.«101185_j16647293239617_1_alg».proof.Proof.Spec
import proofs.«101185_j16647293239617_1_alg».proof.Proof.Graph

noncomputable section

namespace Cert.Model

open Idealize.ShloMosaic Cert.KernelIdeal

/-- One graph-convolution layer and the positive part: relu (agg e (A·W) + b). -/
def layer {K : Nat} (e : (⟨S2x3200000, .i32⟩ : BufTy).Contents (Elt Ideal)) (A : FVec Ideal ⟨2, ![100000, K]⟩ .f32)
    (W : FVec Ideal ⟨2, ![K, 64]⟩ .f32) (b : FVec Ideal ⟨1, ![64]⟩ .f32) : FVec Ideal ⟨2, ![100000, 64]⟩ .f32 :=
  Spec.biasRelu (Graph.agg (F := Ideal) e (Spec.rowsTimes A W)) b

/-- The network: two layers, then one linear head. -/
def gcnOut (x : FVec Ideal ⟨2, ![100000, 128]⟩ .f32) (e : (⟨S2x3200000, .i32⟩ : BufTy).Contents (Elt Ideal))
    (W1 : FVec Ideal ⟨2, ![128, 64]⟩ .f32) (b1 : FVec Ideal ⟨1, ![64]⟩ .f32)
    (W2 : FVec Ideal ⟨2, ![64, 64]⟩ .f32) (b2 : FVec Ideal ⟨1, ![64]⟩ .f32)
    (Wh : FVec Ideal ⟨2, ![64, 1]⟩ .f32) (bh : FVec Ideal ⟨1, ![1]⟩ .f32) : FVec Ideal ⟨2, ![100000, 1]⟩ .f32 :=
  Spec.headOut (layer e (layer e x W1 b1) W2 b2) Wh bh

end Cert.Model

end
-- ==== Proof.Region0.lean ====
/-
  Region 0: the first dense product. Each of the 20 grid points multiplies a block of 5000 rows of the node features
  (128 columns) by the whole 128 × 64 weight and writes the 5000 × 64 result back to the same rows of the output.
  Over the extended reals a block's result is, entry by entry, ∑ₖ feature[row, k]·weight[k, column]; the row blocks tile
  the 100000 rows, so after the last point the output array is the whole product `Spec.rowsTimes` of the two arrays as
  the region found them.
-/
import proofs.«101185_j16647293239617_1_alg».proof.Proof.Gen.KernelIdeal.Frame
import proofs.«101185_j16647293239617_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Blocks

open Cert.KernelIdeal Cert.KernelIdeal.Gen Idealize.ShloMosaic Idealize.ShloMosaic.TcCoe Idealize.ShloMosaic.ValueIdx Idealize.SL.Sem
open Idealize.ShloMosaic.Pipeline (Dat Cfg Window)
open scoped BigOperators

variable (V : (c : Dev nD) → (b : Ref sig .tc) → Buf (Elt Ideal) ((c : Thread nD τ).loc b))

namespace R0

/-- The zero offsets of a whole-block access, as the constant function. -/
theorem zeroOffsets : (![0, 0] : Fin 2 → Nat) = fun _ => 0 := funext fun a => by fin_cases a <;> rfl

/-- The product's dimension numbers, axis by axis: the left operand is read at (row of the output, contraction index), the right
    at (contraction index, column of the output). -/
theorem lhs_0 (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem lhs_1 (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
theorem rhs_0 (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
theorem rhs_1 (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- The body's one stored value at an index: the matrix product into a zero accumulator is the plain sum over the
    contraction index (the casts to bf16 are the identity on the extended reals). -/
theorem pay_apply (x0 : Vec Ideal S5000x128 .f32) (x1 : Vec Ideal S128x64 .f32) (i : S5000x64.Idx) :
    k0_pay1 x0 x1 i = ∑ k : Fin 128, x0 (ix2 (n0 := 5000) (n1 := 128) ⟨(i 0).val, (i 0).isLt⟩ k) * x1 (ix2 (n0 := 128) (n1 := 64) k ⟨(i 1).val, (i 1).isLt⟩) := by
  unfold k0_pay1
  simp only [matmul, shapeCast_self]
  refine (Ideal.matmul_constant_zero_apply dot_S5000x128_S128x64_S5000x64_1_0_0_1_n_n none _ _ i).trans ?_
  rw [← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : dot_S5000x128_S128x64_S5000x64_1_0_0_1_n_n.lhsIdx i ((ValueIdx.contrEquiv1 dot_S5000x128_S128x64_S5000x64_1_0_0_1_n_n 128 rfl rfl).symm k) = ix2 (n0 := 5000) (n1 := 128) ⟨(i 0).val, (i 0).isLt⟩ k := funext fun a => Fin.ext (by
    match a with
    | ⟨0, _⟩ => exact lhs_0 _ _
    | ⟨1, _⟩ => exact (lhs_1 _ _).trans hk)
  have er : dot_S5000x128_S128x64_S5000x64_1_0_0_1_n_n.rhsIdx i ((ValueIdx.contrEquiv1 dot_S5000x128_S128x64_S5000x64_1_0_0_1_n_n 128 rfl rfl).symm k) = ix2 (n0 := 128) (n1 := 64) k ⟨(i 1).val, (i 1).isLt⟩ := funext fun a => Fin.ext (by
    match a with
    | ⟨0, _⟩ => exact (rhs_0 _ _).trans hk
    | ⟨1, _⟩ => exact rhs_1 _ _)
  rw [el, er]
  rfl

/-- The index maps over the 20 grid points: point t reads rows 5000·t … of the node features and writes the same rows of the
    product; the weight is one whole block at every point. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row p of the feature block at point t is row 5000·t + p of the feature array. -/
theorem featBlock_apply (c : Dev nD) (t : Fin cfg0.N) (p : Fin 5000) (k : Fin 128) (r : Fin 100000)
    (hr : r.val = 5000 * t.val + p.val) : iblk0 V c 0 t (ix2 p k) = V c main_arg0 (ix2 r k) := by
  obtain ⟨e0, e1, -, -, -, -⟩ := idx_facts t
  show V c main_arg0 (((cfg0.win 0).blk t).view.emb (ix2 p k)) = V c main_arg0 (ix2 r k)
  refine congrArg _ (funext fun a => Fin.ext ?_)
  match a with
  | ⟨0, _⟩ => show win0_0.index t (0 : Fin 2) * 5000 + 1 * p.val = r.val; rw [e0, hr]; omega
  | ⟨1, _⟩ => show win0_0.index t (1 : Fin 2) * 128 + 1 * k.val = k.val; rw [e1]; omega

/-- The weight block at every point is the weight array. -/
theorem weightBlock_apply (c : Dev nD) (t : Fin cfg0.N) (k : Fin 128) (q : Fin 64) :
    iblk0 V c 1 t (ix2 k q) = V c main_arg2 (ix2 k q) := by
  obtain ⟨-, -, e2, e3, -, -⟩ := idx_facts t
  show V c main_arg2 (((cfg0.win 1).blk t).view.emb (ix2 k q)) = V c main_arg2 (ix2 k q)
  refine congrArg _ (funext fun a => Fin.ext ?_)
  match a with
  | ⟨0, _⟩ => show win0_1.index t (0 : Fin 2) * 128 + 1 * k.val = k.val; rw [e2]; omega
  | ⟨1, _⟩ => show win0_1.index t (1 : Fin 2) * 64 + 1 * q.val = q.val; rw [e3]; omega

/-- Entry (p, q) of the output block at point t sits at (5000·t + p, q) of the output array. -/
theorem outBlock_emb (t : Fin cfg0.N) (p : Fin 5000) (q : Fin 64) (r : Fin 100000) (hr : r.val = 5000 * t.val + p.val) :
    (((cfg0.win 2).blk t).view.emb (ix2 p q) : S100000x64.Idx) = ix2 r q := by
  obtain ⟨-, -, -, -, e4, e5⟩ := idx_facts t
  funext a
  apply Fin.ext
  match a with
  | ⟨0, _⟩ => show win0_2.index t (0 : Fin 2) * 5000 + 1 * p.val = r.val; rw [e4, hr]; omega
  | ⟨1, _⟩ => show win0_2.index t (1 : Fin 2) * 64 + 1 * q.val = q.val; rw [e5]; omega

/-- What point t writes back is block t of the whole product. -/
theorem flushed_eq (c : Dev nD) (t : Fin cfg0.N) :
    (dat0 V c).flushed 2 t = ((cfg0.win 2).blk t).view.read (Elt Ideal)
      (Spec.rowsTimes (K := 128) (P := 64) (V c main_arg0) (V c main_arg2)) := by
  show (cfg0.win 2).cut (grid0.coords t) ((dat0 V c).after 2 t) = _
  rw [after0_2]
  unfold out0_2
  rw [View.canon_unit_zero zeroOffsets]
  simp only [View.ld_unit_zero (S := S5000x128) zeroOffsets, View.ld_unit_zero (S := S128x64) zeroOffsets]
  funext j
  obtain ⟨p, q, rfl⟩ : ∃ (p : Fin 5000) (q : Fin 64), j = ix2 p q := ⟨j 0, j 1, eq_ix2 j⟩
  have ht : t.val < 20 := (N_0 : grid0.N = 20) ▸ t.isLt
  have hr : 5000 * t.val + p.val < 100000 := by have := p.isLt; omega
  show k0_pay1 (F := Ideal) (iblk0 V c 0 t) (iblk0 V c 1 t) (ix2 p q)
    = Spec.rowsTimes (K := 128) (P := 64) (V c main_arg0) (V c main_arg2) (((cfg0.win 2).blk t).view.emb (ix2 p q))
  rw [outBlock_emb t p q ⟨5000 * t.val + p.val, hr⟩ rfl]
  refine (pay_apply _ _ (ix2 p q)).trans ?_
  unfold Spec.rowsTimes
  refine Finset.sum_congr rfl fun k _ => ?_
  exact congrArg₂ (fun a b : EReal => a * b) (featBlock_apply V c t p k ⟨5000 * t.val + p.val, hr⟩ rfl) (weightBlock_apply V c t k q)

/-- An index is in point t's block iff each coordinate is in the block's range. -/
theorem mem_blk (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v30).slice (win0_2.rect t)).set ↔ _
  rw [View.set_slice_whole, Rect.mem_set_unit]
  exact Iff.rfl

/-- The 20 blocks of 5000 rows cover the array: row r is in the block of point r / 5000. -/
theorem covered (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : grid0.N = 20 := N_0
  let t : Fin cfg0.N := ⟨(i 0).val / 5000, by show _ < grid0.N; omega⟩
  refine ⟨t, flush0_2 t, ?_⟩
  rw [mem_blk]
  obtain ⟨-, -, -, -, e4, e5⟩ := idx_facts t
  have tv : t.val = (i 0).val / 5000 := rfl
  intro a
  match a with
  | ⟨0, _⟩ => show win0_2.index t (0 : Fin 2) * 5000 ≤ (i 0).val ∧ (i 0).val < win0_2.index t (0 : Fin 2) * 5000 + 5000; rw [e4, tv]; omega
  | ⟨1, _⟩ => show win0_2.index t (1 : Fin 2) * 64 ≤ (i 1).val ∧ (i 1).val < win0_2.index t (1 : Fin 2) * 64 + 64; rw [e5]; omega

end R0

/-- After the 20 points the output array holds the product of the feature array, as the region found it, with the weight. -/
theorem region0_array (c : Dev nD) :
    (dat0 V c).arrAt 2 cfg0.N = Spec.rowsTimes (K := 128) (P := 64) (V c main_arg0) (V c main_arg2) :=
  (dat0 V c).arrAt_eq_of_cover 2 _ (fun t _ => R0.flushed_eq V c t) R0.covered

end Cert.KernelIdeal.Blocks

end
-- ==== Proof.Region1.lean ====
/-
  Region 1: a bias row added to every node's row, then the positive part, computed in 20 blocks of 5000 rows.
  With A the [100000, 64] input and b the [1, 64] bias row, the body at one grid point computes, for its 5000 rows,
  entry (p, q) ↦ max (x[p,q] + b[0,q]) 0, where x is the block of A the point reads. Block t of A is rows
  5000·t … 5000·t + 4999 (all 64 columns), the bias row is one whole block at every point, and the output's block at
  point t is again rows 5000·t … 5000·t + 4999. Since 20 · 5000 = 100000 the output's blocks tile the array, so after
  the 20 write-backs the output holds entry (r, j) ↦ max (A[r,j] + b[0,j]) 0 everywhere.
-/
import proofs.«101185_j16647293239617_1_alg».proof.Proof.Gen.KernelIdeal.Frame
import proofs.«101185_j16647293239617_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Blocks

open Cert.KernelIdeal Cert.KernelIdeal.Gen Idealize.ShloMosaic Idealize.ShloMosaic.TcCoe Idealize.ShloMosaic.ValueIdx Idealize.SL.Sem
open Idealize.ShloMosaic.Pipeline (Dat Cfg Window)
open scoped BigOperators

variable (V : (c : Dev nD) → (b : Ref sig .tc) → Buf (Elt Ideal) ((c : Thread nD τ).loc b))

namespace R1

/-- The offsets (0, 0) at which the body reads and writes its whole blocks are the constant zero function. -/
theorem zeroOffsets : (![0, 0] : Fin 2 → Nat) = fun _ => 0 := funext fun a => by fin_cases a <;> rfl

/-- The block indices at each of the 20 grid points: at point `t` the input's block and the output's block are
    block (t, 0) of their arrays, and the bias row's block is block (0, 0). -/
theorem blockIndex : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The body's arithmetic at entry (p, q) of a block: max (x[p,q] + b[0,q]) 0. The two casts are to the same shape, so
    they change nothing; the [1, 64] row spread over 5000 rows reads, at (p, q), its entry (0, q). -/
theorem biasRelu_payload (x0 : Vec Ideal S5000x64 .f32) (x1 : Vec Ideal S1x64 .f32) (p : Fin 5000) (q : Fin 64) :
    k1_pay1 (F := Ideal) x0 x1 (ix2 p q) = max (x0 (ix2 p q) + x1 (ix2 (0 : Fin 1) q)) (Ideal.ofBits .f32 0x00000000#32) := by
  unfold k1_pay1
  rw [maximumf_apply, addf_apply, broadcast_apply, shapeCast_self, shapeCast_self,
    broadcastTo_apply x1 _ (ix2 p q) (ix2 (0 : Fin 1) q) (fun a => by match a with | ⟨0, _⟩ => rfl | ⟨1, _⟩ => rfl)]
  rfl

/-- Entry (p, q) of the input's block at point `t` is entry (5000·t + p, q) of the input array: the block's row
    coordinate is block index × 5000 + p, its column coordinate 0 × 64 + q. -/
theorem nodeBlock (c : Dev nD) (t : Fin cfg1.N) (p : Fin 5000) (q : Fin 64) (r : Fin 100000)
    (hr : r.val = 5000 * t.val + p.val) :
    (iblk1 V c 0 t : Vec Ideal S5000x64 .f32) (ix2 p q) = (V c main_v43 : S100000x64.Idx → Elt Ideal .f32) (ix2 r q) := by
  obtain ⟨e0, e1, -⟩ := blockIndex t
  unfold iblk1
  rw [View.read_apply]
  show V c main_v43 _ = V c main_v43 _
  congr 1
  funext a
  apply Fin.ext
  match a with
  | ⟨0, _⟩ => show win1_0.index t (0 : Fin 2) * 5000 + 1 * p.val = r.val; rw [e0, hr]; omega
  | ⟨1, _⟩ => show win1_0.index t (1 : Fin 2) * 64 + 1 * q.val = q.val; rw [e1]; omega

/-- The bias row's block is the row itself at every point: entry (0, q) of the block is entry (0, q) of the array. -/
theorem biasBlock (c : Dev nD) (t : Fin cfg1.N) (q : Fin 64) :
    (iblk1 V c 1 t : Vec Ideal S1x64 .f32) (ix2 (0 : Fin 1) q) = (V c main_v44 : S1x64.Idx → Elt Ideal .f32) (ix2 (0 : Fin 1) q) := by
  obtain ⟨-, -, e2, e3, -⟩ := blockIndex t
  unfold iblk1
  rw [View.read_apply]
  show V c main_v44 _ = V c main_v44 _
  congr 1
  funext a
  apply Fin.ext
  match a with
  | ⟨0, _⟩ => show win1_1.index t (0 : Fin 2) * 1 + 1 * 0 = 0; rw [e2]
  | ⟨1, _⟩ => show win1_1.index t (1 : Fin 2) * 64 + 1 * q.val = q.val; rw [e3]; omega

/-- Entry (p, q) of the output's block at point `t` sits at (5000·t + p, q) of the output array. -/
theorem outBlock_emb (t : Fin cfg1.N) (p : Fin 5000) (q : Fin 64) (r : Fin 100000)
    (hr : r.val = 5000 * t.val + p.val) :
    (((cfg1.win 2).blk t).view.emb (ix2 p q) : S100000x64.Idx) = ix2 r q := by
  obtain ⟨-, -, -, -, e4, e5⟩ := blockIndex t
  funext a
  apply Fin.ext
  match a with
  | ⟨0, _⟩ => show win1_2.index t (0 : Fin 2) * 5000 + 1 * p.val = r.val; rw [e4, hr]; omega
  | ⟨1, _⟩ => show win1_2.index t (1 : Fin 2) * 64 + 1 * q.val = q.val; rw [e5]; omega

/-- What point `t` writes back is block `t` of the whole-array function (r, j) ↦ max (A[r,j] + b[0,j]) 0: the body's one
    store covers its block, its loads read their whole blocks, and each block entry is the array's entry in row
    5000·t + p. -/
theorem writeback (c : Dev nD) (t : Fin cfg1.N) :
    (dat1 V c).flushed 2 t = ((cfg1.win 2).blk t).view.read (Elt Ideal) (Spec.biasRelu (V c main_v43) (Spec.rowOf (V c main_v44))) := by
  show (cfg1.win 2).cut (grid1.coords t) ((dat1 V c).after 2 t) = _
  rw [after1_2]
  unfold out1_2
  rw [View.canon_unit_zero zeroOffsets]
  simp only [View.ld_unit_zero (S := S5000x64) zeroOffsets, View.ld_unit_zero (S := S1x64) zeroOffsets]
  funext j
  obtain ⟨p, q, rfl⟩ : ∃ (p : Fin 5000) (q : Fin 64), j = ix2 p q := ⟨j 0, j 1, eq_ix2 j⟩
  have hN : grid1.N = 20 := N_1
  have ht : t.val < 20 := hN ▸ t.isLt
  have hr : 5000 * t.val + p.val < 100000 := by have := p.isLt; omega
  show k1_pay1 (F := Ideal) (iblk1 V c 0 t) (iblk1 V c 1 t) (ix2 p q) = _
  rw [biasRelu_payload, nodeBlock V c t p q ⟨5000 * t.val + p.val, hr⟩ rfl, biasBlock V c t q,
    View.read_apply, outBlock_emb t p q ⟨5000 * t.val + p.val, hr⟩ rfl]
  rfl

/-- An index of the output array is in point `t`'s block iff each coordinate lies in the block's range on its axis. -/
theorem mem_outBlock (t : Fin cfg1.N) (i : S100000x64.Idx) :
    i ∈ ((cfg1.win 2).blk t).view.set ↔ ∀ a : Fin 2, win1_2.index t a * S5000x64.size a ≤ (i a).val ∧ (i a).val < win1_2.index t a * S5000x64.size a + S5000x64.size a := by
  show i ∈ ((View.whole main_v45).slice (win1_2.rect t)).set ↔ _
  rw [View.set_slice_whole, Rect.mem_set_unit]
  exact Iff.rfl

/-- The 20 blocks of 5000 rows tile the 100000 rows: index (r, j) lies in the block of point r / 5000, because
    (r / 5000) · 5000 ≤ r < (r / 5000) · 5000 + 5000 and r / 5000 < 20. -/
theorem outBlocks_cover (i : S100000x64.Idx) :
    ∃ t : Fin cfg1.N, (cfg1.win 2).flush t = true ∧ i ∈ ((cfg1.win 2).blk t).view.set := by
  have hN : grid1.N = 20 := N_1
  have hi0 : (i 0).val < 100000 := (i 0).isLt
  have hi1 : (i 1).val < 64 := (i 1).isLt
  have htN : (i 0).val / 5000 < grid1.N := by rw [hN]; omega
  obtain ⟨-, -, -, -, e4, e5⟩ := blockIndex ⟨(i 0).val / 5000, htN⟩
  refine ⟨⟨(i 0).val / 5000, htN⟩, flush1_2 _, ?_⟩
  rw [mem_outBlock]
  intro a
  match a with
  | ⟨0, _⟩ =>
    show win1_2.index ⟨(i 0).val / 5000, htN⟩ (0 : Fin 2) * 5000 ≤ (i 0).val ∧ (i 0).val < win1_2.index ⟨(i 0).val / 5000, htN⟩ (0 : Fin 2) * 5000 + 5000
    rw [e4]; show (i 0).val / 5000 * 5000 ≤ (i 0).val ∧ (i 0).val < (i 0).val / 5000 * 5000 + 5000; omega
  | ⟨1, _⟩ =>
    show win1_2.index ⟨(i 0).val / 5000, htN⟩ (1 : Fin 2) * 64 ≤ (i 1).val ∧ (i 1).val < win1_2.index ⟨(i 0).val / 5000, htN⟩ (1 : Fin 2) * 64 + 64
    rw [e5]; omega

end R1

/-- After all 20 points have written their blocks back, the output array is the bias row added to every row of the
    input, then the positive part. -/
theorem region1_array (c : Dev nD) :
    (dat1 V c).arrAt 2 cfg1.N = Spec.biasRelu (V c main_v43) (Spec.rowOf (V c main_v44)) := by
  exact (dat1 V c).arrAt_eq_of_cover 2 _ (fun t _ => R1.writeback V c t) R1.outBlocks_cover

end Cert.KernelIdeal.Blocks

end
-- ==== Proof.Region2.lean ====
/-
  Region 2: the second dense product. Each of the 20 grid points multiplies a block of 5000 rows of the first layer's output
  (64 columns) by the whole 64 × 64 weight and writes the 5000 × 64 result back to the same rows of the output.
  Over the extended reals a block's result is, entry by entry, ∑ₖ feature[row, k]·weight[k, column]; the row blocks tile
  the 100000 rows, so after the last point the output array is the whole product `Spec.rowsTimes` of the two arrays as
  the region found them.
-/
import proofs.«101185_j16647293239617_1_alg».proof.Proof.Gen.KernelIdeal.Frame
import proofs.«101185_j16647293239617_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Blocks

open Cert.KernelIdeal Cert.KernelIdeal.Gen Idealize.ShloMosaic Idealize.ShloMosaic.TcCoe Idealize.ShloMosaic.ValueIdx Idealize.SL.Sem
open Idealize.ShloMosaic.Pipeline (Dat Cfg Window)
open scoped BigOperators

variable (V : (c : Dev nD) → (b : Ref sig .tc) → Buf (Elt Ideal) ((c : Thread nD τ).loc b))

namespace R2

/-- The zero offsets of a whole-block access, as the constant function. -/
theorem zeroOffsets : (![0, 0] : Fin 2 → Nat) = fun _ => 0 := funext fun a => by fin_cases a <;> rfl

/-- The product's dimension numbers, axis by axis: the left operand is read at (row of the output, contraction index), the right
    at (contraction index, column of the output). -/
theorem lhs_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem lhs_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem rhs_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem rhs_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- The body's one stored value at an index: the matrix product into a zero accumulator is the plain sum over the
    contraction index (the casts to bf16 are the identity on the extended reals). -/
theorem pay_apply (x0 : Vec Ideal S5000x64 .f32) (x1 : Vec Ideal S64x64 .f32) (i : S5000x64.Idx) :
    k2_pay1 x0 x1 i = ∑ k : Fin 64, x0 (ix2 (n0 := 5000) (n1 := 64) ⟨(i 0).val, (i 0).isLt⟩ k) * x1 (ix2 (n0 := 64) (n1 := 64) k ⟨(i 1).val, (i 1).isLt⟩) := by
  unfold k2_pay1
  simp only [matmul, shapeCast_self]
  refine (Ideal.matmul_constant_zero_apply dot_S5000x64_S64x64_S5000x64_1_0_0_1_n_n none _ _ i).trans ?_
  rw [← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx i ((ValueIdx.contrEquiv1 dot_S5000x64_S64x64_S5000x64_1_0_0_1_n_n 64 rfl rfl).symm k) = ix2 (n0 := 5000) (n1 := 64) ⟨(i 0).val, (i 0).isLt⟩ k := funext fun a => Fin.ext (by
    match a with
    | ⟨0, _⟩ => exact lhs_0 _ _
    | ⟨1, _⟩ => exact (lhs_1 _ _).trans hk)
  have er : dot_S5000x64_S64x64_S5000x64_1_0_0_1_n_n.rhsIdx i ((ValueIdx.contrEquiv1 dot_S5000x64_S64x64_S5000x64_1_0_0_1_n_n 64 rfl rfl).symm k) = ix2 (n0 := 64) (n1 := 64) k ⟨(i 1).val, (i 1).isLt⟩ := funext fun a => Fin.ext (by
    match a with
    | ⟨0, _⟩ => exact (rhs_0 _ _).trans hk
    | ⟨1, _⟩ => exact rhs_1 _ _)
  rw [el, er]
  rfl

/-- The index maps over the 20 grid points: point t reads rows 5000·t … of the first layer's output and writes the same rows of the
    product; the weight is one whole block at every point. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Row p of the feature block at point t is row 5000·t + p of the feature array. -/
theorem featBlock_apply (c : Dev nD) (t : Fin cfg2.N) (p : Fin 5000) (k : Fin 64) (r : Fin 100000)
    (hr : r.val = 5000 * t.val + p.val) : iblk2 V c 0 t (ix2 p k) = V c main_v45 (ix2 r k) := by
  obtain ⟨e0, e1, -, -, -, -⟩ := idx_facts t
  show V c main_v45 (((cfg2.win 0).blk t).view.emb (ix2 p k)) = V c main_v45 (ix2 r k)
  refine congrArg _ (funext fun a => Fin.ext ?_)
  match a with
  | ⟨0, _⟩ => show win2_0.index t (0 : Fin 2) * 5000 + 1 * p.val = r.val; rw [e0, hr]; omega
  | ⟨1, _⟩ => show win2_0.index t (1 : Fin 2) * 64 + 1 * k.val = k.val; rw [e1]; omega

/-- The weight block at every point is the weight array. -/
theorem weightBlock_apply (c : Dev nD) (t : Fin cfg2.N) (k : Fin 64) (q : Fin 64) :
    iblk2 V c 1 t (ix2 k q) = V c main_arg4 (ix2 k q) := by
  obtain ⟨-, -, e2, e3, -, -⟩ := idx_facts t
  show V c main_arg4 (((cfg2.win 1).blk t).view.emb (ix2 k q)) = V c main_arg4 (ix2 k q)
  refine congrArg _ (funext fun a => Fin.ext ?_)
  match a with
  | ⟨0, _⟩ => show win2_1.index t (0 : Fin 2) * 64 + 1 * k.val = k.val; rw [e2]; omega
  | ⟨1, _⟩ => show win2_1.index t (1 : Fin 2) * 64 + 1 * q.val = q.val; rw [e3]; omega

/-- Entry (p, q) of the output block at point t sits at (5000·t + p, q) of the output array. -/
theorem outBlock_emb (t : Fin cfg2.N) (p : Fin 5000) (q : Fin 64) (r : Fin 100000) (hr : r.val = 5000 * t.val + p.val) :
    (((cfg2.win 2).blk t).view.emb (ix2 p q) : S100000x64.Idx) = ix2 r q := by
  obtain ⟨-, -, -, -, e4, e5⟩ := idx_facts t
  funext a
  apply Fin.ext
  match a with
  | ⟨0, _⟩ => show win2_2.index t (0 : Fin 2) * 5000 + 1 * p.val = r.val; rw [e4, hr]; omega
  | ⟨1, _⟩ => show win2_2.index t (1 : Fin 2) * 64 + 1 * q.val = q.val; rw [e5]; omega

/-- What point t writes back is block t of the whole product. -/
theorem flushed_eq (c : Dev nD) (t : Fin cfg2.N) :
    (dat2 V c).flushed 2 t = ((cfg2.win 2).blk t).view.read (Elt Ideal)
      (Spec.rowsTimes (K := 64) (P := 64) (V c main_v45) (V c main_arg4)) := by
  show (cfg2.win 2).cut (grid2.coords t) ((dat2 V c).after 2 t) = _
  rw [after2_2]
  unfold out2_2
  rw [View.canon_unit_zero zeroOffsets]
  simp only [View.ld_unit_zero (S := S5000x64) zeroOffsets, View.ld_unit_zero (S := S64x64) zeroOffsets]
  funext j
  obtain ⟨p, q, rfl⟩ : ∃ (p : Fin 5000) (q : Fin 64), j = ix2 p q := ⟨j 0, j 1, eq_ix2 j⟩
  have ht : t.val < 20 := (N_2 : grid2.N = 20) ▸ t.isLt
  have hr : 5000 * t.val + p.val < 100000 := by have := p.isLt; omega
  show k2_pay1 (F := Ideal) (iblk2 V c 0 t) (iblk2 V c 1 t) (ix2 p q)
    = Spec.rowsTimes (K := 64) (P := 64) (V c main_v45) (V c main_arg4) (((cfg2.win 2).blk t).view.emb (ix2 p q))
  rw [outBlock_emb t p q ⟨5000 * t.val + p.val, hr⟩ rfl]
  refine (pay_apply _ _ (ix2 p q)).trans ?_
  unfold Spec.rowsTimes
  refine Finset.sum_congr rfl fun k _ => ?_
  exact congrArg₂ (fun a b : EReal => a * b) (featBlock_apply V c t p k ⟨5000 * t.val + p.val, hr⟩ rfl) (weightBlock_apply V c t k q)

/-- An index is in point t's block iff each coordinate is in the block's range. -/
theorem mem_blk (t : Fin cfg2.N) (i : S100000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v46).slice (win2_2.rect t)).set ↔ _
  rw [View.set_slice_whole, Rect.mem_set_unit]
  exact Iff.rfl

/-- The 20 blocks of 5000 rows cover the array: row r is in the block of point r / 5000. -/
theorem covered (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  have hN : grid2.N = 20 := N_2
  let t : Fin cfg2.N := ⟨(i 0).val / 5000, by show _ < grid2.N; omega⟩
  refine ⟨t, flush2_2 t, ?_⟩
  rw [mem_blk]
  obtain ⟨-, -, -, -, e4, e5⟩ := idx_facts t
  have tv : t.val = (i 0).val / 5000 := rfl
  intro a
  match a with
  | ⟨0, _⟩ => show win2_2.index t (0 : Fin 2) * 5000 ≤ (i 0).val ∧ (i 0).val < win2_2.index t (0 : Fin 2) * 5000 + 5000; rw [e4, tv]; omega
  | ⟨1, _⟩ => show win2_2.index t (1 : Fin 2) * 64 ≤ (i 1).val ∧ (i 1).val < win2_2.index t (1 : Fin 2) * 64 + 64; rw [e5]; omega

end R2

/-- After the 20 points the output array holds the product of the feature array, as the region found it, with the weight. -/
theorem region2_array (c : Dev nD) :
    (dat2 V c).arrAt 2 cfg2.N = Spec.rowsTimes (K := 64) (P := 64) (V c main_v45) (V c main_arg4) :=
  (dat2 V c).arrAt_eq_of_cover 2 _ (fun t _ => R2.flushed_eq V c t) R2.covered

end Cert.KernelIdeal.Blocks

end
-- ==== Proof.Region3.lean ====
/-
  Region 3: a bias row added to every node's row, then the positive part, computed in 20 blocks of 5000 rows.
  With A the [100000, 64] input and b the [1, 64] bias row, the body at one grid point computes, for its 5000 rows,
  entry (p, q) ↦ max (x[p,q] + b[0,q]) 0, where x is the block of A the point reads. Block t of A is rows
  5000·t … 5000·t + 4999 (all 64 columns), the bias row is one whole block at every point, and the output's block at
  point t is again rows 5000·t … 5000·t + 4999. Since 20 · 5000 = 100000 the output's blocks tile the array, so after
  the 20 write-backs the output holds entry (r, j) ↦ max (A[r,j] + b[0,j]) 0 everywhere.
-/
import proofs.«101185_j16647293239617_1_alg».proof.Proof.Gen.KernelIdeal.Frame
import proofs.«101185_j16647293239617_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Blocks

open Cert.KernelIdeal Cert.KernelIdeal.Gen Idealize.ShloMosaic Idealize.ShloMosaic.TcCoe Idealize.ShloMosaic.ValueIdx Idealize.SL.Sem
open Idealize.ShloMosaic.Pipeline (Dat Cfg Window)
open scoped BigOperators

variable (V : (c : Dev nD) → (b : Ref sig .tc) → Buf (Elt Ideal) ((c : Thread nD τ).loc b))

namespace R3

/-- The offsets (0, 0) at which the body reads and writes its whole blocks are the constant zero function. -/
theorem zeroOffsets : (![0, 0] : Fin 2 → Nat) = fun _ => 0 := funext fun a => by fin_cases a <;> rfl

/-- The block indices at each of the 20 grid points: at point `t` the input's block and the output's block are
    block (t, 0) of their arrays, and the bias row's block is block (0, 0). -/
theorem blockIndex : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The body's arithmetic at entry (p, q) of a block: max (x[p,q] + b[0,q]) 0. The two casts are to the same shape, so
    they change nothing; the [1, 64] row spread over 5000 rows reads, at (p, q), its entry (0, q). -/
theorem biasRelu_payload (x0 : Vec Ideal S5000x64 .f32) (x1 : Vec Ideal S1x64 .f32) (p : Fin 5000) (q : Fin 64) :
    k3_pay1 (F := Ideal) x0 x1 (ix2 p q) = max (x0 (ix2 p q) + x1 (ix2 (0 : Fin 1) q)) (Ideal.ofBits .f32 0x00000000#32) := by
  unfold k3_pay1
  rw [maximumf_apply, addf_apply, broadcast_apply, shapeCast_self, shapeCast_self,
    broadcastTo_apply x1 _ (ix2 p q) (ix2 (0 : Fin 1) q) (fun a => by match a with | ⟨0, _⟩ => rfl | ⟨1, _⟩ => rfl)]
  rfl

/-- Entry (p, q) of the input's block at point `t` is entry (5000·t + p, q) of the input array: the block's row
    coordinate is block index × 5000 + p, its column coordinate 0 × 64 + q. -/
theorem nodeBlock (c : Dev nD) (t : Fin cfg3.N) (p : Fin 5000) (q : Fin 64) (r : Fin 100000)
    (hr : r.val = 5000 * t.val + p.val) :
    (iblk3 V c 0 t : Vec Ideal S5000x64 .f32) (ix2 p q) = (V c main_v59 : S100000x64.Idx → Elt Ideal .f32) (ix2 r q) := by
  obtain ⟨e0, e1, -⟩ := blockIndex t
  unfold iblk3
  rw [View.read_apply]
  show V c main_v59 _ = V c main_v59 _
  congr 1
  funext a
  apply Fin.ext
  match a with
  | ⟨0, _⟩ => show win3_0.index t (0 : Fin 2) * 5000 + 1 * p.val = r.val; rw [e0, hr]; omega
  | ⟨1, _⟩ => show win3_0.index t (1 : Fin 2) * 64 + 1 * q.val = q.val; rw [e1]; omega

/-- The bias row's block is the row itself at every point: entry (0, q) of the block is entry (0, q) of the array. -/
theorem biasBlock (c : Dev nD) (t : Fin cfg3.N) (q : Fin 64) :
    (iblk3 V c 1 t : Vec Ideal S1x64 .f32) (ix2 (0 : Fin 1) q) = (V c main_v60 : S1x64.Idx → Elt Ideal .f32) (ix2 (0 : Fin 1) q) := by
  obtain ⟨-, -, e2, e3, -⟩ := blockIndex t
  unfold iblk3
  rw [View.read_apply]
  show V c main_v60 _ = V c main_v60 _
  congr 1
  funext a
  apply Fin.ext
  match a with
  | ⟨0, _⟩ => show win3_1.index t (0 : Fin 2) * 1 + 1 * 0 = 0; rw [e2]
  | ⟨1, _⟩ => show win3_1.index t (1 : Fin 2) * 64 + 1 * q.val = q.val; rw [e3]; omega

/-- Entry (p, q) of the output's block at point `t` sits at (5000·t + p, q) of the output array. -/
theorem outBlock_emb (t : Fin cfg3.N) (p : Fin 5000) (q : Fin 64) (r : Fin 100000)
    (hr : r.val = 5000 * t.val + p.val) :
    (((cfg3.win 2).blk t).view.emb (ix2 p q) : S100000x64.Idx) = ix2 r q := by
  obtain ⟨-, -, -, -, e4, e5⟩ := blockIndex t
  funext a
  apply Fin.ext
  match a with
  | ⟨0, _⟩ => show win3_2.index t (0 : Fin 2) * 5000 + 1 * p.val = r.val; rw [e4, hr]; omega
  | ⟨1, _⟩ => show win3_2.index t (1 : Fin 2) * 64 + 1 * q.val = q.val; rw [e5]; omega

/-- What point `t` writes back is block `t` of the whole-array function (r, j) ↦ max (A[r,j] + b[0,j]) 0: the body's one
    store covers its block, its loads read their whole blocks, and each block entry is the array's entry in row
    5000·t + p. -/
theorem writeback (c : Dev nD) (t : Fin cfg3.N) :
    (dat3 V c).flushed 2 t = ((cfg3.win 2).blk t).view.read (Elt Ideal) (Spec.biasRelu (V c main_v59) (Spec.rowOf (V c main_v60))) := by
  show (cfg3.win 2).cut (grid3.coords t) ((dat3 V c).after 2 t) = _
  rw [after3_2]
  unfold out3_2
  rw [View.canon_unit_zero zeroOffsets]
  simp only [View.ld_unit_zero (S := S5000x64) zeroOffsets, View.ld_unit_zero (S := S1x64) zeroOffsets]
  funext j
  obtain ⟨p, q, rfl⟩ : ∃ (p : Fin 5000) (q : Fin 64), j = ix2 p q := ⟨j 0, j 1, eq_ix2 j⟩
  have hN : grid3.N = 20 := N_3
  have ht : t.val < 20 := hN ▸ t.isLt
  have hr : 5000 * t.val + p.val < 100000 := by have := p.isLt; omega
  show k3_pay1 (F := Ideal) (iblk3 V c 0 t) (iblk3 V c 1 t) (ix2 p q) = _
  rw [biasRelu_payload, nodeBlock V c t p q ⟨5000 * t.val + p.val, hr⟩ rfl, biasBlock V c t q,
    View.read_apply, outBlock_emb t p q ⟨5000 * t.val + p.val, hr⟩ rfl]
  rfl

/-- An index of the output array is in point `t`'s block iff each coordinate lies in the block's range on its axis. -/
theorem mem_outBlock (t : Fin cfg3.N) (i : S100000x64.Idx) :
    i ∈ ((cfg3.win 2).blk t).view.set ↔ ∀ a : Fin 2, win3_2.index t a * S5000x64.size a ≤ (i a).val ∧ (i a).val < win3_2.index t a * S5000x64.size a + S5000x64.size a := by
  show i ∈ ((View.whole main_v61).slice (win3_2.rect t)).set ↔ _
  rw [View.set_slice_whole, Rect.mem_set_unit]
  exact Iff.rfl

/-- The 20 blocks of 5000 rows tile the 100000 rows: index (r, j) lies in the block of point r / 5000, because
    (r / 5000) · 5000 ≤ r < (r / 5000) · 5000 + 5000 and r / 5000 < 20. -/
theorem outBlocks_cover (i : S100000x64.Idx) :
    ∃ t : Fin cfg3.N, (cfg3.win 2).flush t = true ∧ i ∈ ((cfg3.win 2).blk t).view.set := by
  have hN : grid3.N = 20 := N_3
  have hi0 : (i 0).val < 100000 := (i 0).isLt
  have hi1 : (i 1).val < 64 := (i 1).isLt
  have htN : (i 0).val / 5000 < grid3.N := by rw [hN]; omega
  obtain ⟨-, -, -, -, e4, e5⟩ := blockIndex ⟨(i 0).val / 5000, htN⟩
  refine ⟨⟨(i 0).val / 5000, htN⟩, flush3_2 _, ?_⟩
  rw [mem_outBlock]
  intro a
  match a with
  | ⟨0, _⟩ =>
    show win3_2.index ⟨(i 0).val / 5000, htN⟩ (0 : Fin 2) * 5000 ≤ (i 0).val ∧ (i 0).val < win3_2.index ⟨(i 0).val / 5000, htN⟩ (0 : Fin 2) * 5000 + 5000
    rw [e4]; show (i 0).val / 5000 * 5000 ≤ (i 0).val ∧ (i 0).val < (i 0).val / 5000 * 5000 + 5000; omega
  | ⟨1, _⟩ =>
    show win3_2.index ⟨(i 0).val / 5000, htN⟩ (1 : Fin 2) * 64 ≤ (i 1).val ∧ (i 1).val < win3_2.index ⟨(i 0).val / 5000, htN⟩ (1 : Fin 2) * 64 + 64
    rw [e5]; omega

end R3

/-- After all 20 points have written their blocks back, the output array is the bias row added to every row of the
    input, then the positive part. -/
theorem region3_array (c : Dev nD) :
    (dat3 V c).arrAt 2 cfg3.N = Spec.biasRelu (V c main_v59) (Spec.rowOf (V c main_v60)) := by
  exact (dat3 V c).arrAt_eq_of_cover 2 _ (fun t _ => R3.writeback V c t) R3.outBlocks_cover

end Cert.KernelIdeal.Blocks

end
-- ==== Proof.Region4.lean ====
/-
  The last dense stage of the two-layer graph convolution, both output heads at once: out = H·W + b, with H the
  [100000, 64] hidden features, W the [64, 2] weight whose columns are the two heads, b the [1, 2] bias row.
  The kernel computes it 5000 rows at a time over 20 grid points. Here: entry (p, q) of what one point stores is
  ∑ₖ X[p,k]·W[k,q] + b[0,q] for X the point's 5000 rows of H; the point's rows are rows 5000·t … 5000·t + 4999 of H
  and its output block the same rows of the output; the 20 blocks cover all 100000 rows; so the output array ends
  holding H·W + b on every row.
-/
import proofs.«101185_j16647293239617_1_alg».proof.Proof.Gen.KernelIdeal.Frame
import proofs.«101185_j16647293239617_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Blocks

open Cert.KernelIdeal Cert.KernelIdeal.Gen Idealize.ShloMosaic Idealize.ShloMosaic.TcCoe Idealize.ShloMosaic.ValueIdx Idealize.SL.Sem
open Idealize.ShloMosaic.Pipeline (Dat Cfg Window)
open scoped BigOperators

variable (V : (c : Dev nD) → (b : Ref sig .tc) → Buf (Elt Ideal) ((c : Thread nD τ).loc b))

namespace R4

/-- The two-axis zero offset, as the constant function. -/
theorem zero_offsets : (![0, 0] : Fin 2 → Nat) = fun _ => 0 :=
  funext fun a => by match a with | ⟨0, _⟩ => rfl | ⟨1, _⟩ => rfl

/-! ## The product of a 5000-row block with the two-column weight, at an index -/

/-- The product's operands at output entry i and contraction index q: the block is read at (i₀, q) and the weight
    at (q, i₁). Axis by axis: -/
theorem lhs_rows_0 (i : S5000x2.Idx) (q : dot_S5000x64_S64x2_S5000x2_1_0_0_1_n_n.contr.Idx) :
    (dot_S5000x64_S64x2_S5000x2_1_0_0_1_n_n.lhsIdx i q 0).val = (i 0).val := by
  unfold DotDims.lhsIdx
  rw [dif_neg (show ¬(0 : Fin S5000x64.rank) ∈ dot_S5000x64_S64x2_S5000x2_1_0_0_1_n_n.lhsBatch by decide), dif_pos (show (0 : Fin S5000x64.rank) ∈ dot_S5000x64_S64x2_S5000x2_1_0_0_1_n_n.lhsNonContracting by decide)]
  rfl
theorem lhs_rows_1 (i : S5000x2.Idx) (q : dot_S5000x64_S64x2_S5000x2_1_0_0_1_n_n.contr.Idx) :
    (dot_S5000x64_S64x2_S5000x2_1_0_0_1_n_n.lhsIdx i q 1).val = (q ⟨0, by decide⟩).val :=
  dot_S5000x64_S64x2_S5000x2_1_0_0_1_n_n.lhsIdx_val_of_single rfl i q
theorem rhs_weight_0 (i : S5000x2.Idx) (q : dot_S5000x64_S64x2_S5000x2_1_0_0_1_n_n.contr.Idx) :
    (dot_S5000x64_S64x2_S5000x2_1_0_0_1_n_n.rhsIdx i q 0).val = (q ⟨0, by decide⟩).val :=
  dot_S5000x64_S64x2_S5000x2_1_0_0_1_n_n.rhsIdx_val_of_single rfl i q
theorem rhs_weight_1 (i : S5000x2.Idx) (q : dot_S5000x64_S64x2_S5000x2_1_0_0_1_n_n.contr.Idx) :
    (dot_S5000x64_S64x2_S5000x2_1_0_0_1_n_n.rhsIdx i q 1).val = (i 1).val := by
  unfold DotDims.rhsIdx
  rw [dif_neg (show ¬(1 : Fin S64x2.rank) ∈ dot_S5000x64_S64x2_S5000x2_1_0_0_1_n_n.rhsBatch by decide), dif_pos (show (1 : Fin S64x2.rank) ∈ dot_S5000x64_S64x2_S5000x2_1_0_0_1_n_n.rhsNonContracting by decide)]
  rfl

/-- Entry (p, q) of a block's product with the weight, accumulated from zero, is ∑ₖ X[p,k]·W[k,q]. -/
theorem blockTimes_apply (X : FVec Ideal S5000x64 .bf16) (W : FVec Ideal S64x2 .bf16) (p : Fin 5000) (q : Fin 2) :
    matmul dot_S5000x64_S64x2_S5000x2_1_0_0_1_n_n none X W (constant (F := Ideal) S5000x2 .f32 0x00000000#32) (ix2 p q)
      = ∑ k : Fin 64, X (ix2 p k) * W (ix2 k q) := by
  show FloatOps.matmul dot_S5000x64_S64x2_S5000x2_1_0_0_1_n_n none X W (constant (F := Ideal) S5000x2 .f32 0x00000000#32) (ix2 p q) = _
  rw [Ideal.matmul_constant_zero_apply, ← Equiv.sum_comp (ValueIdx.contrEquiv1 dot_S5000x64_S64x2_S5000x2_1_0_0_1_n_n 64 rfl rfl).symm]
  refine Finset.sum_congr rfl fun k _ => ?_
  have hk := ValueIdx.contrEquiv1_symm_val dot_S5000x64_S64x2_S5000x2_1_0_0_1_n_n 64 rfl rfl k
  have el : dot_S5000x64_S64x2_S5000x2_1_0_0_1_n_n.lhsIdx (ix2 p q) ((ValueIdx.contrEquiv1 dot_S5000x64_S64x2_S5000x2_1_0_0_1_n_n 64 rfl rfl).symm k) = ix2 p k := funext fun a => Fin.ext (by
    match a with
    | ⟨0, _⟩ => exact lhs_rows_0 _ _
    | ⟨1, _⟩ => exact (lhs_rows_1 _ _).trans hk)
  have er : dot_S5000x64_S64x2_S5000x2_1_0_0_1_n_n.rhsIdx (ix2 p q) ((ValueIdx.contrEquiv1 dot_S5000x64_S64x2_S5000x2_1_0_0_1_n_n 64 rfl rfl).symm k) = ix2 k q := funext fun a => Fin.ext (by
    match a with
    | ⟨0, _⟩ => exact (rhs_weight_0 _ _).trans hk
    | ⟨1, _⟩ => exact rhs_weight_1 _ _)
  rw [el, er]

/-- The bias row spread over the block's 5000 rows: entry (p, q) is b[0,q]. -/
theorem biasRows_apply (b : FVec Ideal S1x2 .f32) (p : Fin 5000) (q : Fin 2) :
    broadcastTo S5000x2 b broadcasts_S1x2_S5000x2 (ix2 p q) = b (ix2 0 q) := by
  refine broadcastTo_apply b broadcasts_S1x2_S5000x2 (ix2 p q) (ix2 0 q) fun a => ?_
  match a with
  | ⟨0, _⟩ => rfl
  | ⟨1, _⟩ => rfl

/-- The body's stored value at entry (p, q) of a block: ∑ₖ X[p,k]·W[k,q] + b[0,q]. -/
theorem payload_apply (X : Vec Ideal S5000x64 .f32) (W : Vec Ideal S64x2 .f32) (b : Vec Ideal S1x2 .f32) (p : Fin 5000) (q : Fin 2) :
    k4_pay1 (F := Ideal) X W b (ix2 p q) = (∑ k : Fin 64, X (ix2 p k) * W (ix2 k q)) + b (ix2 0 q) := by
  unfold k4_pay1
  rw [addf_apply, blockTimes_apply, biasRows_apply]
  simp only [truncf_apply, shapeCast_self]

/-! ## Where the grid's points put the blocks -/

/-- At point t the rows' window and the output's window sit at block (t, 0); the weight and the bias row are
    one whole block, (0, 0), at every point. Decided over the 20 points. -/
theorem block_indices : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- Entry (p, k) of the rows' block at point t is entry (5000·t + p, k) of the array. -/
theorem rowsBlock_apply (c : Dev nD) (t : Fin cfg4.N) (p : Fin 5000) (k : Fin 64) (r : Fin 100000)
    (hr : r.val = t.val * 5000 + p.val) :
    (iblk4 V c 0 t : Vec Ideal S5000x64 .f32) (ix2 p k) = (V c main_v61 : S100000x64.Idx → Elt Ideal .f32) (ix2 r k) := by
  obtain ⟨e0, e1, -⟩ := block_indices t
  unfold iblk4
  rw [View.read_apply]
  show V c main_v61 _ = V c main_v61 _
  congr 1
  funext a; apply Fin.ext
  match a with
  | ⟨0, _⟩ => show win4_0.index t (0 : Fin 2) * 5000 + 1 * p.val = r.val; rw [e0, hr]; omega
  | ⟨1, _⟩ => show win4_0.index t (1 : Fin 2) * 64 + 1 * k.val = k.val; rw [e1]; omega

/-- The weight's block at any point is the whole weight. -/
theorem weightBlock_apply (c : Dev nD) (t : Fin cfg4.N) (k : Fin 64) (q : Fin 2) :
    (iblk4 V c 1 t : Vec Ideal S64x2 .f32) (ix2 k q) = (V c main_v62 : S64x2.Idx → Elt Ideal .f32) (ix2 k q) := by
  obtain ⟨-, -, e2, e3, -⟩ := block_indices t
  unfold iblk4
  rw [View.read_apply]
  show V c main_v62 _ = V c main_v62 _
  congr 1
  funext a; apply Fin.ext
  match a with
  | ⟨0, _⟩ => show win4_1.index t (0 : Fin 2) * 64 + 1 * k.val = k.val; rw [e2]; omega
  | ⟨1, _⟩ => show win4_1.index t (1 : Fin 2) * 2 + 1 * q.val = q.val; rw [e3]; omega

/-- The bias row's block at any point is the whole row. -/
theorem biasBlock_apply (c : Dev nD) (t : Fin cfg4.N) (z : Fin 1) (q : Fin 2) :
    (iblk4 V c 2 t : Vec Ideal S1x2 .f32) (ix2 z q) = (V c main_v64 : S1x2.Idx → Elt Ideal .f32) (ix2 z q) := by
  obtain ⟨-, -, -, -, e4, e5, -⟩ := block_indices t
  unfold iblk4
  rw [View.read_apply]
  show V c main_v64 _ = V c main_v64 _
  congr 1
  funext a; apply Fin.ext
  match a with
  | ⟨0, _⟩ => show win4_2.index t (0 : Fin 2) * 1 + 1 * z.val = z.val; rw [e4]; omega
  | ⟨1, _⟩ => show win4_2.index t (1 : Fin 2) * 2 + 1 * q.val = q.val; rw [e5]; omega

/-- Entry (p, q) of the output's block at point t is entry (5000·t + p, q) of the output array. -/
theorem outBlock_emb (t : Fin cfg4.N) (p : Fin 5000) (q : Fin 2) (r : Fin 100000) (hr : r.val = t.val * 5000 + p.val) :
    ((cfg4.win 3).blk t).view.emb (ix2 p q) = (ix2 r q : S100000x2.Idx) := by
  obtain ⟨-, -, -, -, -, -, e6, e7⟩ := block_indices t
  funext a; apply Fin.ext
  match a with
  | ⟨0, _⟩ => show win4_3.index t (0 : Fin 2) * 5000 + 1 * p.val = r.val; rw [e6, hr]; omega
  | ⟨1, _⟩ => show win4_3.index t (1 : Fin 2) * 2 + 1 * q.val = q.val; rw [e7]; omega

/-- Both heads at entry (r, q): ∑ₖ H[r,k]·W[k,q] + b[0,q]. -/
theorem headsPair_apply (H : FVec Ideal ⟨2, ![100000, 64]⟩ .f32) (W : FVec Ideal ⟨2, ![64, 2]⟩ .f32) (b : FVec Ideal ⟨2, ![1, 2]⟩ .f32)
    (r : Fin 100000) (q : Fin 2) :
    Spec.headsPair H W b (ix2 r q) = (∑ k : Fin 64, H (ix2 r k) * W (ix2 k q)) + b (ix2 0 q) := rfl

/-! ## What each point writes back, and the whole array -/

/-- What point t writes back is block t of both heads' output: rows 5000·t … 5000·t + 4999 of H·W + b. -/
theorem flushed_block (c : Dev nD) (t : Fin cfg4.N) :
    (dat4 V c).flushed 3 t
      = ((cfg4.win 3).blk t).view.read (Elt Ideal) (Spec.headsPair (V c main_v61) (V c main_v62) (V c main_v64)) := by
  show (cfg4.win 3).cut (grid4.coords t) ((dat4 V c).after 3 t) = _
  rw [after4_3]
  unfold out4_3
  rw [View.canon_unit_zero zero_offsets]
  simp only [View.ld_unit_zero (S := S5000x64) zero_offsets, View.ld_unit_zero (S := S64x2) zero_offsets,
    View.ld_unit_zero (S := S1x2) zero_offsets]
  funext j
  obtain ⟨p, q, rfl⟩ : ∃ (p : Fin 5000) (q : Fin 2), j = ix2 p q := ⟨j 0, j 1, eq_ix2 j⟩
  have hN : cfg4.N = 20 := N_4
  have ht : t.val < 20 := hN ▸ t.isLt
  have hp : p.val < 5000 := p.isLt
  show k4_pay1 (F := Ideal) (iblk4 V c 0 t) (iblk4 V c 1 t) (iblk4 V c 2 t) (ix2 p q)
    = Spec.headsPair (V c main_v61) (V c main_v62) (V c main_v64) (((cfg4.win 3).blk t).view.emb (ix2 p q))
  rw [payload_apply, outBlock_emb t p q ⟨t.val * 5000 + p.val, by omega⟩ rfl, headsPair_apply, biasBlock_apply V c t 0 q]
  refine congrArg (· + _) (Finset.sum_congr rfl fun k _ => ?_)
  rw [rowsBlock_apply V c t p k ⟨t.val * 5000 + p.val, by omega⟩ rfl, weightBlock_apply V c t k q]

/-- An index of the output array lies in point t's block iff each coordinate lies in the block's range on its axis. -/
theorem mem_outBlock (t : Fin cfg4.N) (i : S100000x2.Idx) :
    i ∈ ((cfg4.win 3).blk t).view.set
      ↔ ∀ a : Fin 2, win4_3.index t a * S5000x2.size a ≤ (i a).val ∧ (i a).val < win4_3.index t a * S5000x2.size a + S5000x2.size a := by
  show i ∈ ((View.whole main_v65).slice (win4_3.rect t)).set ↔ _
  rw [View.set_slice_whole, Rect.mem_set_unit]
  exact Iff.rfl

/-- Every entry of the output array is written by some point: row r by point r / 5000. -/
theorem rows_covered (i : S100000x2.Idx) :
    ∃ t : Fin cfg4.N, (cfg4.win 3).flush t = true ∧ i ∈ ((cfg4.win 3).blk t).view.set := by
  have hi0 : (i 0).val < 100000 := (i 0).isLt
  have hi1 : (i 1).val < 2 := (i 1).isLt
  have hN : cfg4.N = 20 := N_4
  have hlt : (i 0).val / 5000 < cfg4.N := by rw [hN]; omega
  obtain ⟨-, -, -, -, -, -, e6, e7⟩ := block_indices ⟨(i 0).val / 5000, hlt⟩
  refine ⟨⟨(i 0).val / 5000, hlt⟩, flush4_3 _, ?_⟩
  rw [mem_outBlock]
  intro a
  match a with
  | ⟨0, _⟩ =>
    show win4_3.index ⟨(i 0).val / 5000, hlt⟩ (0 : Fin 2) * 5000 ≤ (i 0).val
      ∧ (i 0).val < win4_3.index ⟨(i 0).val / 5000, hlt⟩ (0 : Fin 2) * 5000 + 5000
    rw [e6]; show (i 0).val / 5000 * 5000 ≤ (i 0).val ∧ (i 0).val < (i 0).val / 5000 * 5000 + 5000; omega
  | ⟨1, _⟩ =>
    show win4_3.index ⟨(i 0).val / 5000, hlt⟩ (1 : Fin 2) * 2 ≤ (i 1).val
      ∧ (i 1).val < win4_3.index ⟨(i 0).val / 5000, hlt⟩ (1 : Fin 2) * 2 + 2
    rw [e7]; omega

end R4

/-- After the 20 points the output array holds both heads' output, H·W + b, on all 100000 rows. -/
theorem region4_array (c : Dev nD) :
    (dat4 V c).arrAt 3 cfg4.N = Spec.headsPair (V c main_v61) (V c main_v62) (V c main_v64) :=
  (dat4 V c).arrAt_eq_of_cover 3 (Spec.headsPair (V c main_v61) (V c main_v62) (V c main_v64))
    (fun t _ => R4.flushed_block V c t) R4.rows_covered

end Cert.KernelIdeal.Blocks

end
-- ==== Proof.KernelValue.lean ====
/-
  The kernel program's two results, as functions of its arguments. Between its five regions the program runs stretches of host
  operations; each stretch's results are read as functions of what the stretch found (the graph arrays from the edge list, the
  two normalised neighbourhood sums, the biases as rows, the two heads' weights side by side, and at the end one column of
  the heads per result), each region's output array as its index-level function of what the region found, and the buffers a
  later step reads back are followed through the regions and stretches that do not write them. Chained, the two results are
  the network `Model.gcnOut`, once for each head.
-/
import proofs.«101185_j16647293239617_1_alg».proof.Proof.Gen.KernelIdeal.Frame
import proofs.«101185_j16647293239617_1_alg».proof.Proof.Model
import proofs.«101185_j16647293239617_1_alg».proof.Proof.Region0
import proofs.«101185_j16647293239617_1_alg».proof.Proof.Region1
import proofs.«101185_j16647293239617_1_alg».proof.Proof.Region2
import proofs.«101185_j16647293239617_1_alg».proof.Proof.Region3
import proofs.«101185_j16647293239617_1_alg».proof.Proof.Region4
import Idealize.ShloMosaic.Lib.StableHlo.Run
import Idealize.ShloMosaic.Lib.Pipeline.Value
import Idealize.ShloMosaic.Lib.ValueIdx

set_option maxRecDepth 16384

noncomputable section

namespace Cert.KernelIdeal.KValue

open Cert.KernelIdeal Cert.KernelIdeal.Gen Idealize.ShloMosaic Idealize.ShloMosaic.TcCoe Idealize.ShloMosaic.ValueIdx Idealize.SL.Sem
open Idealize.ShloMosaic.StableHlo

/-! # The host stretches, for any float family

What each stretch of host operations leaves in the buffers a later region or stretch reads, as a function of what the stretch
found: stated for any float family, because nothing here computes with a float. -/

section Stretches

variable {F : FTy → Type} [FloatOps F]
variable (m : (ℓ : Loc nD τ sig) → Buf (Elt F) ℓ) (ρ : Dev nD → PrngReg)

/-- `Graph.agg` with the source ids, destination ids and edge weights as arrays of their own. -/
def aggOf (src dst : (⟨S3300000, .i32⟩ : BufTy).Contents (Elt F)) (nw : (⟨S3300000, .f32⟩ : BufTy).Contents (Elt F))
    (h : (⟨S100000x64, .f32⟩ : BufTy).Contents (Elt F)) : (⟨S100000x64, .f32⟩ : BufTy).Contents (Elt F) :=
  Host.scatterAdd scatter_S100000x64_S3300000x1_S3300000x64_1_0_0_1
    (broadcastInDim S100000x64 ![] bcast_S_S100000x64 (constant S_ .f32 0x00000000#32))
    (Graph.col dst)
    (mulf (Host.gather gather_S100000x64_S3300000x1_S3300000x64_1_0_n_n_0_1_164 h (Graph.col (Graph.wrap src)))
      (broadcastInDim S3300000x64 ![0, 1] bcast_S3300000x1_S3300000x64_0_1 (Graph.col nw)))

theorem agg_eq (e : (⟨S2x3200000, .i32⟩ : BufTy).Contents (Elt F)) (h : (⟨S100000x64, .f32⟩ : BufTy).Contents (Elt F)) :
    Graph.agg (F := F) e h = aggOf (Graph.srcIdx e) (Graph.dstIdx e) (Graph.normW e) h := rfl

/-! ## Before the first region: the graph side, from the edge list -/

/-- The source ids the first stretch leaves are `srcIdx` of the edge list. -/
theorem W3_src (c : Dev nD) : W3 m ρ c (Proc.devRef .tc main_v3) = Graph.srcIdx (F := F) (m ((c.tc : Thread nD τ).loc main_arg1)) := by
  dsimp only [W3, W2, W1, hostOps0, hostOps0_1, hostOps0_2]
  after_results <;> rfl

/-- The destination ids are `dstIdx` of the edge list. -/
theorem W3_dst (c : Dev nD) : W3 m ρ c (Proc.devRef .tc main_v6) = Graph.dstIdx (F := F) (m ((c.tc : Thread nD τ).loc main_arg1)) := by
  dsimp only [W3, W2, W1, hostOps0, hostOps0_1, hostOps0_2]
  after_results <;> rfl

/-- The edge weights are `normW` of the edge list. -/
theorem W3_norm (c : Dev nD) : W3 m ρ c (Proc.devRef .tc main_v29) = Graph.normW (F := F) (m ((c.tc : Thread nD τ).loc main_arg1)) := by
  dsimp only [W3, W2, W1, hostOps0, hostOps0_1, hostOps0_2]
  after_results_simp <;> rfl

/-! No operation of that stretch writes an argument. -/
theorem W3_arg0 (c : Dev nD) : W3 m ρ c (Proc.devRef .tc main_arg0) = m ((c.tc : Thread nD τ).loc main_arg0) := by
  dsimp only [W3, W2, W1, hostOps0, hostOps0_1, hostOps0_2]
  after_results <;> rfl
theorem W3_arg2 (c : Dev nD) : W3 m ρ c (Proc.devRef .tc main_arg2) = m ((c.tc : Thread nD τ).loc main_arg2) := by
  dsimp only [W3, W2, W1, hostOps0, hostOps0_1, hostOps0_2]
  after_results <;> rfl
theorem W3_arg3 (c : Dev nD) : W3 m ρ c (Proc.devRef .tc main_arg3) = m ((c.tc : Thread nD τ).loc main_arg3) := by
  dsimp only [W3, W2, W1, hostOps0, hostOps0_1, hostOps0_2]
  after_results <;> rfl
theorem W3_arg4 (c : Dev nD) : W3 m ρ c (Proc.devRef .tc main_arg4) = m ((c.tc : Thread nD τ).loc main_arg4) := by
  dsimp only [W3, W2, W1, hostOps0, hostOps0_1, hostOps0_2]
  after_results <;> rfl
theorem W3_arg5 (c : Dev nD) : W3 m ρ c (Proc.devRef .tc main_arg5) = m ((c.tc : Thread nD τ).loc main_arg5) := by
  dsimp only [W3, W2, W1, hostOps0, hostOps0_1, hostOps0_2]
  after_results <;> rfl
theorem W3_arg6 (c : Dev nD) : W3 m ρ c (Proc.devRef .tc main_arg6) = m ((c.tc : Thread nD τ).loc main_arg6) := by
  dsimp only [W3, W2, W1, hostOps0, hostOps0_1, hostOps0_2]
  after_results <;> rfl
theorem W3_arg7 (c : Dev nD) : W3 m ρ c (Proc.devRef .tc main_arg7) = m ((c.tc : Thread nD τ).loc main_arg7) := by
  dsimp only [W3, W2, W1, hostOps0, hostOps0_1, hostOps0_2]
  after_results <;> rfl
theorem W3_arg8 (c : Dev nD) : W3 m ρ c (Proc.devRef .tc main_arg8) = m ((c.tc : Thread nD τ).loc main_arg8) := by
  dsimp only [W3, W2, W1, hostOps0, hostOps0_1, hostOps0_2]
  after_results <;> rfl
theorem W3_arg9 (c : Dev nD) : W3 m ρ c (Proc.devRef .tc main_arg9) = m ((c.tc : Thread nD τ).loc main_arg9) := by
  dsimp only [W3, W2, W1, hostOps0, hostOps0_1, hostOps0_2]
  after_results <;> rfl

/-! ## Region 0 writes only its output -/

theorem W4_src (c : Dev nD) : W4 m ρ c (Proc.devRef .tc main_v3) = Graph.srcIdx (F := F) (m ((c.tc : Thread nD τ).loc main_arg1)) :=
  (W4_of_ne m ρ c main_v3 (by decide)).trans (W3_src m ρ c)
theorem W4_dst (c : Dev nD) : W4 m ρ c (Proc.devRef .tc main_v6) = Graph.dstIdx (F := F) (m ((c.tc : Thread nD τ).loc main_arg1)) :=
  (W4_of_ne m ρ c main_v6 (by decide)).trans (W3_dst m ρ c)
theorem W4_norm (c : Dev nD) : W4 m ρ c (Proc.devRef .tc main_v29) = Graph.normW (F := F) (m ((c.tc : Thread nD τ).loc main_arg1)) :=
  (W4_of_ne m ρ c main_v29 (by decide)).trans (W3_norm m ρ c)
theorem W4_arg3 (c : Dev nD) : W4 m ρ c (Proc.devRef .tc main_arg3) = m ((c.tc : Thread nD τ).loc main_arg3) :=
  (W4_of_ne m ρ c main_arg3 (by decide)).trans (W3_arg3 m ρ c)
theorem W4_arg4 (c : Dev nD) : W4 m ρ c (Proc.devRef .tc main_arg4) = m ((c.tc : Thread nD τ).loc main_arg4) :=
  (W4_of_ne m ρ c main_arg4 (by decide)).trans (W3_arg4 m ρ c)
theorem W4_arg5 (c : Dev nD) : W4 m ρ c (Proc.devRef .tc main_arg5) = m ((c.tc : Thread nD τ).loc main_arg5) :=
  (W4_of_ne m ρ c main_arg5 (by decide)).trans (W3_arg5 m ρ c)
theorem W4_arg6 (c : Dev nD) : W4 m ρ c (Proc.devRef .tc main_arg6) = m ((c.tc : Thread nD τ).loc main_arg6) :=
  (W4_of_ne m ρ c main_arg6 (by decide)).trans (W3_arg6 m ρ c)
theorem W4_arg7 (c : Dev nD) : W4 m ρ c (Proc.devRef .tc main_arg7) = m ((c.tc : Thread nD τ).loc main_arg7) :=
  (W4_of_ne m ρ c main_arg7 (by decide)).trans (W3_arg7 m ρ c)
theorem W4_arg8 (c : Dev nD) : W4 m ρ c (Proc.devRef .tc main_arg8) = m ((c.tc : Thread nD τ).loc main_arg8) :=
  (W4_of_ne m ρ c main_arg8 (by decide)).trans (W3_arg8 m ρ c)
theorem W4_arg9 (c : Dev nD) : W4 m ρ c (Proc.devRef .tc main_arg9) = m ((c.tc : Thread nD τ).loc main_arg9) :=
  (W4_of_ne m ρ c main_arg9 (by decide)).trans (W3_arg9 m ρ c)

/-! ## Between regions 0 and 1: the first neighbourhood sum, and the bias as a row -/

theorem W5_sum (c : Dev nD) : W5 m ρ c (Proc.devRef .tc main_v43)
    = aggOf (W4 m ρ c (Proc.devRef .tc main_v3)) (W4 m ρ c (Proc.devRef .tc main_v6)) (W4 m ρ c (Proc.devRef .tc main_v29)) (W4 m ρ c (Proc.devRef .tc main_v30)) := by
  dsimp only [W5, hostOps1]
  after_results_simp <;> rfl

theorem W5_bias (c : Dev nD) : W5 m ρ c (Proc.devRef .tc main_v44) = shapeCast S1x64 (W4 m ρ c (Proc.devRef .tc main_arg3)) shapeCasts_S64_S1x64 := by
  dsimp only [W5, hostOps1]
  after_results <;> rfl

/-- That stretch writes none of the graph arrays and no argument. -/
theorem W5_keep_main_v3 (c : Dev nD) : W5 m ρ c (Proc.devRef .tc main_v3) = W4 m ρ c (Proc.devRef .tc main_v3) := by
  dsimp only [W5, hostOps1]
  after_results <;> rfl
theorem W5_keep_main_v6 (c : Dev nD) : W5 m ρ c (Proc.devRef .tc main_v6) = W4 m ρ c (Proc.devRef .tc main_v6) := by
  dsimp only [W5, hostOps1]
  after_results <;> rfl
theorem W5_keep_main_v29 (c : Dev nD) : W5 m ρ c (Proc.devRef .tc main_v29) = W4 m ρ c (Proc.devRef .tc main_v29) := by
  dsimp only [W5, hostOps1]
  after_results <;> rfl
theorem W5_keep_main_arg4 (c : Dev nD) : W5 m ρ c (Proc.devRef .tc main_arg4) = W4 m ρ c (Proc.devRef .tc main_arg4) := by
  dsimp only [W5, hostOps1]
  after_results <;> rfl
theorem W5_keep_main_arg5 (c : Dev nD) : W5 m ρ c (Proc.devRef .tc main_arg5) = W4 m ρ c (Proc.devRef .tc main_arg5) := by
  dsimp only [W5, hostOps1]
  after_results <;> rfl
theorem W5_keep_main_arg6 (c : Dev nD) : W5 m ρ c (Proc.devRef .tc main_arg6) = W4 m ρ c (Proc.devRef .tc main_arg6) := by
  dsimp only [W5, hostOps1]
  after_results <;> rfl
theorem W5_keep_main_arg7 (c : Dev nD) : W5 m ρ c (Proc.devRef .tc main_arg7) = W4 m ρ c (Proc.devRef .tc main_arg7) := by
  dsimp only [W5, hostOps1]
  after_results <;> rfl
theorem W5_keep_main_arg8 (c : Dev nD) : W5 m ρ c (Proc.devRef .tc main_arg8) = W4 m ρ c (Proc.devRef .tc main_arg8) := by
  dsimp only [W5, hostOps1]
  after_results <;> rfl
theorem W5_keep_main_arg9 (c : Dev nD) : W5 m ρ c (Proc.devRef .tc main_arg9) = W4 m ρ c (Proc.devRef .tc main_arg9) := by
  dsimp only [W5, hostOps1]
  after_results <;> rfl

/-! ## Regions 1 and 2 write only their outputs -/
theorem W6_keep_main_v3 (c : Dev nD) : W6 m ρ c (Proc.devRef .tc main_v3) = W4 m ρ c (Proc.devRef .tc main_v3) :=
  (W6_of_ne m ρ c main_v3 (by decide)).trans (W5_keep_main_v3 m ρ c)
theorem W6_keep_main_v6 (c : Dev nD) : W6 m ρ c (Proc.devRef .tc main_v6) = W4 m ρ c (Proc.devRef .tc main_v6) :=
  (W6_of_ne m ρ c main_v6 (by decide)).trans (W5_keep_main_v6 m ρ c)
theorem W6_keep_main_v29 (c : Dev nD) : W6 m ρ c (Proc.devRef .tc main_v29) = W4 m ρ c (Proc.devRef .tc main_v29) :=
  (W6_of_ne m ρ c main_v29 (by decide)).trans (W5_keep_main_v29 m ρ c)
theorem W6_keep_main_arg4 (c : Dev nD) : W6 m ρ c (Proc.devRef .tc main_arg4) = W4 m ρ c (Proc.devRef .tc main_arg4) :=
  (W6_of_ne m ρ c main_arg4 (by decide)).trans (W5_keep_main_arg4 m ρ c)
theorem W6_keep_main_arg5 (c : Dev nD) : W6 m ρ c (Proc.devRef .tc main_arg5) = W4 m ρ c (Proc.devRef .tc main_arg5) :=
  (W6_of_ne m ρ c main_arg5 (by decide)).trans (W5_keep_main_arg5 m ρ c)
theorem W6_keep_main_arg6 (c : Dev nD) : W6 m ρ c (Proc.devRef .tc main_arg6) = W4 m ρ c (Proc.devRef .tc main_arg6) :=
  (W6_of_ne m ρ c main_arg6 (by decide)).trans (W5_keep_main_arg6 m ρ c)
theorem W6_keep_main_arg7 (c : Dev nD) : W6 m ρ c (Proc.devRef .tc main_arg7) = W4 m ρ c (Proc.devRef .tc main_arg7) :=
  (W6_of_ne m ρ c main_arg7 (by decide)).trans (W5_keep_main_arg7 m ρ c)
theorem W6_keep_main_arg8 (c : Dev nD) : W6 m ρ c (Proc.devRef .tc main_arg8) = W4 m ρ c (Proc.devRef .tc main_arg8) :=
  (W6_of_ne m ρ c main_arg8 (by decide)).trans (W5_keep_main_arg8 m ρ c)
theorem W6_keep_main_arg9 (c : Dev nD) : W6 m ρ c (Proc.devRef .tc main_arg9) = W4 m ρ c (Proc.devRef .tc main_arg9) :=
  (W6_of_ne m ρ c main_arg9 (by decide)).trans (W5_keep_main_arg9 m ρ c)
theorem W7_keep_main_v3 (c : Dev nD) : W7 m ρ c (Proc.devRef .tc main_v3) = W4 m ρ c (Proc.devRef .tc main_v3) :=
  (W7_of_ne m ρ c main_v3 (by decide)).trans (W6_keep_main_v3 m ρ c)
theorem W7_keep_main_v6 (c : Dev nD) : W7 m ρ c (Proc.devRef .tc main_v6) = W4 m ρ c (Proc.devRef .tc main_v6) :=
  (W7_of_ne m ρ c main_v6 (by decide)).trans (W6_keep_main_v6 m ρ c)
theorem W7_keep_main_v29 (c : Dev nD) : W7 m ρ c (Proc.devRef .tc main_v29) = W4 m ρ c (Proc.devRef .tc main_v29) :=
  (W7_of_ne m ρ c main_v29 (by decide)).trans (W6_keep_main_v29 m ρ c)
theorem W7_keep_main_arg5 (c : Dev nD) : W7 m ρ c (Proc.devRef .tc main_arg5) = W4 m ρ c (Proc.devRef .tc main_arg5) :=
  (W7_of_ne m ρ c main_arg5 (by decide)).trans (W6_keep_main_arg5 m ρ c)
theorem W7_keep_main_arg6 (c : Dev nD) : W7 m ρ c (Proc.devRef .tc main_arg6) = W4 m ρ c (Proc.devRef .tc main_arg6) :=
  (W7_of_ne m ρ c main_arg6 (by decide)).trans (W6_keep_main_arg6 m ρ c)
theorem W7_keep_main_arg7 (c : Dev nD) : W7 m ρ c (Proc.devRef .tc main_arg7) = W4 m ρ c (Proc.devRef .tc main_arg7) :=
  (W7_of_ne m ρ c main_arg7 (by decide)).trans (W6_keep_main_arg7 m ρ c)
theorem W7_keep_main_arg8 (c : Dev nD) : W7 m ρ c (Proc.devRef .tc main_arg8) = W4 m ρ c (Proc.devRef .tc main_arg8) :=
  (W7_of_ne m ρ c main_arg8 (by decide)).trans (W6_keep_main_arg8 m ρ c)
theorem W7_keep_main_arg9 (c : Dev nD) : W7 m ρ c (Proc.devRef .tc main_arg9) = W4 m ρ c (Proc.devRef .tc main_arg9) :=
  (W7_of_ne m ρ c main_arg9 (by decide)).trans (W6_keep_main_arg9 m ρ c)

/-! ## Between regions 2 and 3: the second neighbourhood sum -/

theorem W8_sum (c : Dev nD) : W8 m ρ c (Proc.devRef .tc main_v59)
    = aggOf (W7 m ρ c (Proc.devRef .tc main_v3)) (W7 m ρ c (Proc.devRef .tc main_v6)) (W7 m ρ c (Proc.devRef .tc main_v29)) (W7 m ρ c (Proc.devRef .tc main_v46)) := by
  dsimp only [W8, hostOps3]
  after_results_simp <;> rfl

theorem W8_bias (c : Dev nD) : W8 m ρ c (Proc.devRef .tc main_v60) = shapeCast S1x64 (W7 m ρ c (Proc.devRef .tc main_arg5)) shapeCasts_S64_S1x64 := by
  dsimp only [W8, hostOps3]
  after_results <;> rfl

theorem W8_keep_main_arg6 (c : Dev nD) : W8 m ρ c (Proc.devRef .tc main_arg6) = W7 m ρ c (Proc.devRef .tc main_arg6) := by
  dsimp only [W8, hostOps3]
  after_results <;> rfl
theorem W8_keep_main_arg7 (c : Dev nD) : W8 m ρ c (Proc.devRef .tc main_arg7) = W7 m ρ c (Proc.devRef .tc main_arg7) := by
  dsimp only [W8, hostOps3]
  after_results <;> rfl
theorem W8_keep_main_arg8 (c : Dev nD) : W8 m ρ c (Proc.devRef .tc main_arg8) = W7 m ρ c (Proc.devRef .tc main_arg8) := by
  dsimp only [W8, hostOps3]
  after_results <;> rfl
theorem W8_keep_main_arg9 (c : Dev nD) : W8 m ρ c (Proc.devRef .tc main_arg9) = W7 m ρ c (Proc.devRef .tc main_arg9) := by
  dsimp only [W8, hostOps3]
  after_results <;> rfl

/-- The head weights and biases reach region 3's exit as launched. -/
theorem W9_main_arg6 (c : Dev nD) : W9 m ρ c (Proc.devRef .tc main_arg6) = m ((c.tc : Thread nD τ).loc main_arg6) :=
  (W9_of_ne m ρ c main_arg6 (by decide)).trans ((W8_keep_main_arg6 m ρ c).trans ((W7_keep_main_arg6 m ρ c).trans (W4_arg6 m ρ c)))
theorem W9_main_arg7 (c : Dev nD) : W9 m ρ c (Proc.devRef .tc main_arg7) = m ((c.tc : Thread nD τ).loc main_arg7) :=
  (W9_of_ne m ρ c main_arg7 (by decide)).trans ((W8_keep_main_arg7 m ρ c).trans ((W7_keep_main_arg7 m ρ c).trans (W4_arg7 m ρ c)))
theorem W9_main_arg8 (c : Dev nD) : W9 m ρ c (Proc.devRef .tc main_arg8) = m ((c.tc : Thread nD τ).loc main_arg8) :=
  (W9_of_ne m ρ c main_arg8 (by decide)).trans ((W8_keep_main_arg8 m ρ c).trans ((W7_keep_main_arg8 m ρ c).trans (W4_arg8 m ρ c)))
theorem W9_main_arg9 (c : Dev nD) : W9 m ρ c (Proc.devRef .tc main_arg9) = m ((c.tc : Thread nD τ).loc main_arg9) :=
  (W9_of_ne m ρ c main_arg9 (by decide)).trans ((W8_keep_main_arg9 m ρ c).trans ((W7_keep_main_arg9 m ρ c).trans (W4_arg9 m ρ c)))

/-! ## Between regions 3 and 4: the two heads' weights side by side, their biases as a row -/

theorem W10_feat (c : Dev nD) : W10 m ρ c (Proc.devRef .tc main_v61) = W9 m ρ c (Proc.devRef .tc main_v61) := by
  dsimp only [W10, hostOps4]
  after_results <;> rfl

theorem W10_weights (c : Dev nD) : W10 m ρ c (Proc.devRef .tc main_v62)
    = concatenate S64x2 1 [⟨S64x1, W9 m ρ c (Proc.devRef .tc main_arg6)⟩, ⟨S64x1, W9 m ρ c (Proc.devRef .tc main_arg8)⟩] concatenates_S64x1_S64x1_S64x2_d1 := by
  dsimp only [W10, hostOps4]
  after_results <;> rfl

theorem W10_biases (c : Dev nD) : W10 m ρ c (Proc.devRef .tc main_v64)
    = shapeCast S1x2 (concatenate S2 0 [⟨S1, W9 m ρ c (Proc.devRef .tc main_arg7)⟩, ⟨S1, W9 m ρ c (Proc.devRef .tc main_arg9)⟩] concatenates_S1_S1_S2_d0) shapeCasts_S2_S1x2 := by
  dsimp only [W10, hostOps4]
  after_results <;> rfl

/-! ## After region 4: each result is one column of the two heads -/

theorem W12_out0 (c : Dev nD) : W12 m ρ c (Proc.devRef .tc main_v66)
    = extractStridedSlice S100000x1 ![0, 0] (W11 m ρ c (Proc.devRef .tc main_v65)) slices_S100000x2_S100000x1_0_0 := by
  dsimp only [W12, hostOps5]
  after_results <;> rfl

theorem W12_out1 (c : Dev nD) : W12 m ρ c (Proc.devRef .tc main_v67)
    = extractStridedSlice S100000x1 ![0, 1] (W11 m ρ c (Proc.devRef .tc main_v65)) slices_S100000x2_S100000x1_0_1 := by
  dsimp only [W12, hostOps5]
  after_results <;> rfl

end Stretches

/-! # The kernel's two results, over the extended reals

Each region's output array is its `Spec` function of what the region found (the Region modules); threading those through the
stretches above gives the two results as the network `Model.gcnOut`, one head each. -/

section AtIdeal

variable (m : (ℓ : Loc nD τ sig) → Buf (Elt Ideal) ℓ) (ρ : Dev nD → PrngReg)

/-- A [64] bias reshaped to a [1, 64] row and read back as a row is the bias. -/
theorem rowOf_reshape (b : (⟨S64, .f32⟩ : BufTy).Contents (Elt Ideal)) :
    Spec.rowOf (shapeCast S1x64 b shapeCasts_S64_S1x64) = b := by
  funext j
  unfold Spec.rowOf
  refine (shapeCast_apply b shapeCasts_S64_S1x64 _ j ?_).trans rfl
  rw [Shape.rowMajor_val_one, Shape.rowMajor_val_two]
  show (j 0).val = 0 * 64 + (j 0).val
  omega

/-- Region 0: the first product. -/
theorem W4_prod (c : Dev nD) : W4 m ρ c (Proc.devRef .tc main_v30) = Spec.rowsTimes (K := 128) (P := 64) (m ((c.tc : Thread nD τ).loc main_arg0)) (m ((c.tc : Thread nD τ).loc main_arg2)) :=
  (W4_arr m ρ c 2).trans ((Blocks.region0_array (V3 m ρ) c).trans (by
    show Spec.rowsTimes (K := 128) (P := 64) (W3 m ρ c (Proc.devRef .tc main_arg0)) (W3 m ρ c (Proc.devRef .tc main_arg2)) = _
    rw [W3_arg0, W3_arg2]))

/-- Region 1: the first layer's output. -/
theorem W6_layer1 (c : Dev nD) : W6 m ρ c (Proc.devRef .tc main_v45) = (Model.layer (m ((c.tc : Thread nD τ).loc main_arg1)) (m ((c.tc : Thread nD τ).loc main_arg0)) (m ((c.tc : Thread nD τ).loc main_arg2)) (m ((c.tc : Thread nD τ).loc main_arg3))) :=
  (W6_arr m ρ c 2).trans ((Blocks.region1_array (V5 m ρ) c).trans (by
    show Spec.biasRelu (W5 m ρ c (Proc.devRef .tc main_v43)) (Spec.rowOf (W5 m ρ c (Proc.devRef .tc main_v44))) = _
    rw [W5_sum, W5_bias, W4_src, W4_dst, W4_norm, W4_prod, W4_arg3, ← agg_eq, rowOf_reshape]
    rfl))

/-- Region 2: the second product. -/
theorem W7_prod (c : Dev nD) : W7 m ρ c (Proc.devRef .tc main_v46) = Spec.rowsTimes (K := 64) (P := 64) (Model.layer (m ((c.tc : Thread nD τ).loc main_arg1)) (m ((c.tc : Thread nD τ).loc main_arg0)) (m ((c.tc : Thread nD τ).loc main_arg2)) (m ((c.tc : Thread nD τ).loc main_arg3))) (m ((c.tc : Thread nD τ).loc main_arg4)) :=
  (W7_arr m ρ c 2).trans ((Blocks.region2_array (V6 m ρ) c).trans (by
    show Spec.rowsTimes (K := 64) (P := 64) (W6 m ρ c (Proc.devRef .tc main_v45)) (W6 m ρ c (Proc.devRef .tc main_arg4)) = _
    rw [W6_layer1, W6_keep_main_arg4, W4_arg4]))

/-- Region 3: the second layer's output. -/
theorem W9_layer2 (c : Dev nD) : W9 m ρ c (Proc.devRef .tc main_v61) = (Model.layer (m ((c.tc : Thread nD τ).loc main_arg1)) (Model.layer (m ((c.tc : Thread nD τ).loc main_arg1)) (m ((c.tc : Thread nD τ).loc main_arg0)) (m ((c.tc : Thread nD τ).loc main_arg2)) (m ((c.tc : Thread nD τ).loc main_arg3))) (m ((c.tc : Thread nD τ).loc main_arg4)) (m ((c.tc : Thread nD τ).loc main_arg5))) :=
  (W9_arr m ρ c 2).trans ((Blocks.region3_array (V8 m ρ) c).trans (by
    show Spec.biasRelu (W8 m ρ c (Proc.devRef .tc main_v59)) (Spec.rowOf (W8 m ρ c (Proc.devRef .tc main_v60))) = _
    rw [W8_sum, W8_bias, W7_keep_main_v3, W7_keep_main_v6, W7_keep_main_v29, W7_keep_main_arg5, W4_src, W4_dst, W4_norm, W4_arg5,
      W7_prod, ← agg_eq, rowOf_reshape]
    rfl))

/-- Region 4: the two heads side by side. -/
theorem W11_heads (c : Dev nD) : W11 m ρ c (Proc.devRef .tc main_v65)
    = Spec.headsPair (Model.layer (m ((c.tc : Thread nD τ).loc main_arg1)) (Model.layer (m ((c.tc : Thread nD τ).loc main_arg1)) (m ((c.tc : Thread nD τ).loc main_arg0)) (m ((c.tc : Thread nD τ).loc main_arg2)) (m ((c.tc : Thread nD τ).loc main_arg3))) (m ((c.tc : Thread nD τ).loc main_arg4)) (m ((c.tc : Thread nD τ).loc main_arg5)))
        (concatenate S64x2 1 [⟨S64x1, (m ((c.tc : Thread nD τ).loc main_arg6))⟩, ⟨S64x1, (m ((c.tc : Thread nD τ).loc main_arg8))⟩] concatenates_S64x1_S64x1_S64x2_d1)
        (shapeCast S1x2 (concatenate S2 0 [⟨S1, (m ((c.tc : Thread nD τ).loc main_arg7))⟩, ⟨S1, (m ((c.tc : Thread nD τ).loc main_arg9))⟩] concatenates_S1_S1_S2_d0) shapeCasts_S2_S1x2) :=
  (W11_arr m ρ c 3).trans ((Blocks.region4_array (V10 m ρ) c).trans (by
    show Spec.headsPair (W10 m ρ c (Proc.devRef .tc main_v61)) (W10 m ρ c (Proc.devRef .tc main_v62)) (W10 m ρ c (Proc.devRef .tc main_v64)) = _
    rw [W10_feat, W10_weights, W10_biases, W9_layer2, W9_main_arg6, W9_main_arg7, W9_main_arg8, W9_main_arg9]))

/-- Column 0 of the two heads is the first head: the first weight column, the first bias. -/
theorem head0_col (H : FVec Ideal ⟨2, ![100000, 64]⟩ .f32) (Wt We : (⟨S64x1, .f32⟩ : BufTy).Contents (Elt Ideal))
    (bt be : (⟨S1, .f32⟩ : BufTy).Contents (Elt Ideal)) :
    extractStridedSlice S100000x1 ![0, 0]
      (Spec.headsPair H (concatenate S64x2 1 [⟨S64x1, Wt⟩, ⟨S64x1, We⟩] concatenates_S64x1_S64x1_S64x2_d1)
        (shapeCast S1x2 (concatenate S2 0 [⟨S1, bt⟩, ⟨S1, be⟩] concatenates_S1_S1_S2_d0) shapeCasts_S2_S1x2))
      slices_S100000x2_S100000x1_0_0 = Spec.headOut H Wt bt := by
  funext i
  have hi1 : (i 1).val = 0 := by have h1 : (i 1).val < 1 := (i 1).isLt; omega
  refine (extractStridedSlice_apply ![0, 0] _ slices_S100000x2_S100000x1_0_0 i
    (ix2 (n0 := 100000) (n1 := 2) ⟨(i 0).val, (i 0).isLt⟩ 0) ?_).trans ?_
  · intro a
    match a with
    | ⟨0, _⟩ => show (i 0).val = 0 + (i 0).val; omega
    | ⟨1, _⟩ => show 0 = 0 + (i 1).val; omega
  unfold Spec.headsPair Spec.headOut Spec.rowsTimes
  refine congrArg₂ (fun a b : EReal => a + b) (Finset.sum_congr rfl fun k _ => congrArg₂ (fun a b : EReal => a * b) rfl ?_) ?_
  · refine concatenate_pair_apply_left (1 : Fin S64x2.rank) Wt We concatenates_S64x1_S64x1_S64x2_d1 _ rfl
      (ix2 (n0 := 64) (n1 := 1) k ⟨(i 1).val, (i 1).isLt⟩) ?_
    intro b
    match b with
    | ⟨0, _⟩ => rfl
    | ⟨1, _⟩ => show (i 1).val = 0; exact hi1
  · refine (shapeCast_apply _ shapeCasts_S2_S1x2 _ (ix1 (n := 2) 0) ?_).trans ?_
    · rw [Shape.rowMajor_val_one, Shape.rowMajor_val_two]; rfl
    refine concatenate_pair_apply_left (0 : Fin S2.rank) bt be concatenates_S1_S1_S2_d0 _ rfl
      (ix1 (n := 1) ⟨(i 1).val, (i 1).isLt⟩) ?_
    intro b
    match b with
    | ⟨0, _⟩ => show (i 1).val = 0; exact hi1

/-- Column 1 of the two heads is the second head. -/
theorem head1_col (H : FVec Ideal ⟨2, ![100000, 64]⟩ .f32) (Wt We : (⟨S64x1, .f32⟩ : BufTy).Contents (Elt Ideal))
    (bt be : (⟨S1, .f32⟩ : BufTy).Contents (Elt Ideal)) :
    extractStridedSlice S100000x1 ![0, 1]
      (Spec.headsPair H (concatenate S64x2 1 [⟨S64x1, Wt⟩, ⟨S64x1, We⟩] concatenates_S64x1_S64x1_S64x2_d1)
        (shapeCast S1x2 (concatenate S2 0 [⟨S1, bt⟩, ⟨S1, be⟩] concatenates_S1_S1_S2_d0) shapeCasts_S2_S1x2))
      slices_S100000x2_S100000x1_0_1 = Spec.headOut H We be := by
  funext i
  have hi1 : (i 1).val = 0 := by have h1 : (i 1).val < 1 := (i 1).isLt; omega
  refine (extractStridedSlice_apply ![0, 1] _ slices_S100000x2_S100000x1_0_1 i
    (ix2 (n0 := 100000) (n1 := 2) ⟨(i 0).val, (i 0).isLt⟩ 1) ?_).trans ?_
  · intro a
    match a with
    | ⟨0, _⟩ => show (i 0).val = 0 + (i 0).val; omega
    | ⟨1, _⟩ => show 1 = 1 + (i 1).val; omega
  unfold Spec.headsPair Spec.headOut Spec.rowsTimes
  refine congrArg₂ (fun a b : EReal => a + b) (Finset.sum_congr rfl fun k _ => congrArg₂ (fun a b : EReal => a * b) rfl ?_) ?_
  · refine concatenate_pair_apply_right (1 : Fin S64x2.rank) Wt We concatenates_S64x1_S64x1_S64x2_d1 _ rfl rfl
      (ix2 (n0 := 64) (n1 := 1) k ⟨(i 1).val, (i 1).isLt⟩) ?_ ?_
    · intro b hb
      match b with
      | ⟨0, _⟩ => rfl
      | ⟨1, _⟩ => exact absurd rfl hb
    · show (i 1).val + 1 = 1; omega
  · refine (shapeCast_apply _ shapeCasts_S2_S1x2 _ (ix1 (n := 2) 1) ?_).trans ?_
    · rw [Shape.rowMajor_val_one, Shape.rowMajor_val_two]; rfl
    refine concatenate_pair_apply_right (0 : Fin S2.rank) bt be concatenates_S1_S1_S2_d0 _ rfl rfl
      (ix1 (n := 1) ⟨(i 1).val, (i 1).isLt⟩) ?_ ?_
    · intro b hb
      match b with
      | ⟨0, _⟩ => exact absurd rfl hb
    · show (i 1).val + 1 = 1; omega

/-- The kernel's first result is the network's first head. -/
theorem out0_eq (c : Dev nD) : W12 m ρ c (Proc.devRef .tc main_v66)
    = Model.gcnOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  rw [W12_out0, W11_heads, head0_col]
  rfl

/-- The kernel's second result is the network's second head. -/
theorem out1_eq (c : Dev nD) : W12 m ρ c (Proc.devRef .tc main_v67)
    = Model.gcnOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg8)) (m ((c.tc : Thread nD τ).loc main_arg9)) := by
  rw [W12_out1, W11_heads, head1_col]
  rfl

end AtIdeal

end Cert.KernelIdeal.KValue

end
-- ==== Proof.RefValue.lean ====
/-
  The reference program's two results are the network `Model.gcnOut`, once for each head.
  The reference is a straight line of host operations. Its graph side (source and destination ids with the self loops
  appended, negative ids counted from the end, degrees, degree^(-1/2), the edge weights, and the two normalised
  neighbourhood sums) is, operation for operation, the shared composition `Graph.agg`: the reference computes the
  edge weights twice, and both computations are the one function `Graph.normW` of the edge list. Its dense side
  (two matrix products, two "add the bias row, take the positive part", and one linear head per result) is read index
  by index over the extended reals and matches `Spec.rowsTimes`, `Spec.biasRelu`, `Spec.headOut`. Chaining the
  equalities gives relu (agg (relu (agg (x·W1) + b1)·W2) + b2)·Wh + bh for each head.
-/
import proofs.«101185_j16647293239617_1_alg».proof.Proof.RefRead
import proofs.«101185_j16647293239617_1_alg».proof.Proof.Model

noncomputable section

namespace Cert.ReferenceIdeal.RefValue

open Cert.ReferenceIdeal Cert.ReferenceIdeal.Gen Cert.ReferenceIdeal.ReadP Idealize.ShloMosaic Idealize.ShloMosaic.ValueIdx
open scoped BigOperators

/-- The two programs' shape records for the host's scatters and gathers are the same records. -/
theorem scat64_eq : Cert.ReferenceIdeal.scatter_S100000x64_S3300000x1_S3300000x64_1_0_0_1 = Cert.KernelIdeal.scatter_S100000x64_S3300000x1_S3300000x64_1_0_0_1 := rfl
theorem gath64_eq : Cert.ReferenceIdeal.gather_S100000x64_S3300000x1_S3300000x64_1_0_n_n_0_1_164 = Cert.KernelIdeal.gather_S100000x64_S3300000x1_S3300000x64_1_0_n_n_0_1_164 := rfl
theorem scat1_eq : Cert.ReferenceIdeal.scatter_S100000_S3300000x1_S3300000_n_0_0_1 = Cert.KernelIdeal.scatter_S100000_S3300000x1_S3300000_n_0_0_1 := rfl
theorem gath1_eq : Cert.ReferenceIdeal.gather_S100000_S3300000x1_S3300000_n_0_n_n_0_1_1 = Cert.KernelIdeal.gather_S100000_S3300000x1_S3300000_n_0_n_n_0_1_1 := rfl

section
variable {F : FTy → Type} [FloatOps F]
theorem src_eq (x1 : (⟨S2x3200000, .i32⟩ : BufTy).Contents (Elt F)) : val_main_v3 (F := F) x1 = Graph.srcIdx (F := F) x1 := rfl
theorem dst_eq (x1 : (⟨S2x3200000, .i32⟩ : BufTy).Contents (Elt F)) : val_main_v6 (F := F) x1 = Graph.dstIdx (F := F) x1 := rfl

/-- Each of the reference's re-computations of the wrapped source ids is the one function `wrap ∘ srcIdx`. -/
theorem wrapsrc20_eq (x1 : (⟨S2x3200000, .i32⟩ : BufTy).Contents (Elt F)) : val_main_v20 (F := F) x1 = Graph.wrap (F := F) (Graph.srcIdx x1) := by
  unfold val_main_v20 val_main_v17 val_main_v19 val_main_v16 val_main_v18 val_main_c val_main_c_3
  rw [src_eq]
  rfl
theorem wrapsrc35_eq (x1 : (⟨S2x3200000, .i32⟩ : BufTy).Contents (Elt F)) : val_main_v35 (F := F) x1 = Graph.wrap (F := F) (Graph.srcIdx x1) := by
  unfold val_main_v35 val_main_v32 val_main_v34 val_main_v31 val_main_v33 val_main_c_6 val_main_c_7
  rw [src_eq]
  rfl
theorem wrapsrc61_eq (x1 : (⟨S2x3200000, .i32⟩ : BufTy).Contents (Elt F)) : val_main_v61 (F := F) x1 = Graph.wrap (F := F) (Graph.srcIdx x1) := by
  unfold val_main_v61 val_main_v58 val_main_v60 val_main_v57 val_main_v59 val_main_c_13 val_main_c_14
  rw [src_eq]
  rfl
theorem wrapsrc76_eq (x1 : (⟨S2x3200000, .i32⟩ : BufTy).Contents (Elt F)) : val_main_v76 (F := F) x1 = Graph.wrap (F := F) (Graph.srcIdx x1) := by
  unfold val_main_v76 val_main_v73 val_main_v75 val_main_v72 val_main_v74 val_main_c_17 val_main_c_18
  rw [src_eq]
  rfl
/-- Likewise the wrapped destination ids. -/
theorem wrapdst27_eq (x1 : (⟨S2x3200000, .i32⟩ : BufTy).Contents (Elt F)) : val_main_v27 (F := F) x1 = Graph.wrap (F := F) (Graph.dstIdx x1) := by
  unfold val_main_v27 val_main_v24 val_main_v26 val_main_v23 val_main_v25 val_main_c_4 val_main_c_5
  rw [dst_eq]
  rfl
theorem wrapdst68_eq (x1 : (⟨S2x3200000, .i32⟩ : BufTy).Contents (Elt F)) : val_main_v68 (F := F) x1 = Graph.wrap (F := F) (Graph.dstIdx x1) := by
  unfold val_main_v68 val_main_v65 val_main_v67 val_main_v64 val_main_v66 val_main_c_15 val_main_c_16
  rw [dst_eq]
  rfl
/-- Both degree counts are `degree`. -/
theorem deg11_eq (x1 : (⟨S2x3200000, .i32⟩ : BufTy).Contents (Elt F)) : val_main_v11 (F := F) x1 = Graph.degree (F := F) x1 := by
  unfold val_main_v11 val_main_v10 val_main_v9 val_main_v8 val_main_cst val_main_cst_0
  rw [dst_eq]
  rfl
theorem deg52_eq (x1 : (⟨S2x3200000, .i32⟩ : BufTy).Contents (Elt F)) : val_main_v52 (F := F) x1 = Graph.degree (F := F) x1 := by
  unfold val_main_v52 val_main_v51 val_main_v50 val_main_v49 val_main_cst_9 val_main_cst_10
  rw [dst_eq]
  rfl

/-- Both computations of 1/√degree are `invSqrtDeg`. -/
theorem isd15_eq (x1 : (⟨S2x3200000, .i32⟩ : BufTy).Contents (Elt F)) : val_main_v15 (F := F) x1 = Graph.invSqrtDeg (F := F) x1 := by
  unfold val_main_v15 val_main_v13 val_main_v14 val_main_call0_v1 val_main_call0_v0 val_main_cst_2 val_main_v12 val_main_cst_1
  rw [deg11_eq]
  rfl
theorem isd56_eq (x1 : (⟨S2x3200000, .i32⟩ : BufTy).Contents (Elt F)) : val_main_v56 (F := F) x1 = Graph.invSqrtDeg (F := F) x1 := by
  unfold val_main_v56 val_main_v54 val_main_v55 val_main_call2_v1 val_main_call2_v0 val_main_cst_12 val_main_v53 val_main_cst_11
  rw [deg52_eq]
  rfl
/-- Both computations of the edge weights are `normW`. -/
theorem normW30_eq (x1 : (⟨S2x3200000, .i32⟩ : BufTy).Contents (Elt F)) : val_main_v30 (F := F) x1 = Graph.normW (F := F) x1 := by
  unfold val_main_v30 val_main_v22 val_main_v29 val_main_v21 val_main_v28
  rw [isd15_eq, wrapsrc20_eq, wrapdst27_eq]
  rfl
theorem normW71_eq (x1 : (⟨S2x3200000, .i32⟩ : BufTy).Contents (Elt F)) : val_main_v71 (F := F) x1 = Graph.normW (F := F) x1 := by
  unfold val_main_v71 val_main_v63 val_main_v70 val_main_v62 val_main_v69
  rw [isd56_eq, wrapsrc61_eq, wrapdst68_eq]
  rfl

/-- The first layer's neighbourhood sum is `agg` of the first product. -/
theorem agg43_eq (x0 : (⟨S100000x128, .f32⟩ : BufTy).Contents (Elt F)) (x1 : (⟨S2x3200000, .i32⟩ : BufTy).Contents (Elt F)) (x2 : (⟨S128x64, .f32⟩ : BufTy).Contents (Elt F)) :
    val_main_v43 (F := F) x0 x1 x2 = Graph.agg (F := F) x1 (val_main_v7 (F := F) x0 x2) := by
  unfold val_main_v43 val_main_v42 val_main_v41 val_main_cst_8 val_main_v40 val_main_v37 val_main_v39 val_main_v38 val_main_v36
  rw [wrapsrc35_eq, normW30_eq, dst_eq]
  generalize val_main_v7 (F := F) x0 x2 = h
  rfl
/-- The second layer's neighbourhood sum is `agg` of the second product. -/
theorem agg84_eq (x0 : (⟨S100000x128, .f32⟩ : BufTy).Contents (Elt F)) (x1 : (⟨S2x3200000, .i32⟩ : BufTy).Contents (Elt F)) (x2 : (⟨S128x64, .f32⟩ : BufTy).Contents (Elt F)) (x3 : (⟨S64, .f32⟩ : BufTy).Contents (Elt F)) (x4 : (⟨S64x64, .f32⟩ : BufTy).Contents (Elt F)) :
    val_main_v84 (F := F) x0 x1 x2 x3 x4 = Graph.agg (F := F) x1 (val_main_v48 (F := F) x0 x1 x2 x3 x4) := by
  unfold val_main_v84 val_main_v83 val_main_v82 val_main_cst_19 val_main_v81 val_main_v78 val_main_v80 val_main_v79 val_main_v77
  rw [wrapsrc76_eq, normW71_eq, dst_eq]
  generalize val_main_v48 (F := F) x0 x1 x2 x3 x4 = h
  rfl
end

/-! ## The dense stages, index by index, over the extended reals -/

/-- The first product is the rows of the features times the first weight. -/
theorem v7_eq (x0 : (⟨S100000x128, .f32⟩ : BufTy).Contents (Elt Ideal)) (x2 : (⟨S128x64, .f32⟩ : BufTy).Contents (Elt Ideal)) :
    val_main_v7 (F := Ideal) x0 x2 = Spec.rowsTimes (K := 128) (P := 64) x0 x2 := by
  funext i
  rw [val_main_v7_apply]
  unfold Spec.rowsTimes
  refine Finset.sum_congr rfl fun k _ => ?_
  have el : lidx_main_v7 i k = ix2 (n0 := 100000) (n1 := 128) ⟨(i 0).val, (i 0).isLt⟩ k :=
    funext fun a => by match a with | ⟨0, _⟩ => rfl | ⟨1, _⟩ => rfl
  have er : ridx_main_v7 i k = ix2 (n0 := 128) (n1 := 64) k ⟨(i 1).val, (i 1).isLt⟩ :=
    funext fun a => by match a with | ⟨0, _⟩ => rfl | ⟨1, _⟩ => rfl
  rw [el, er]

/-- The first layer's bias and positive part: entry (r, j) is max (A[r,j] + b[j]) 0. -/
theorem v47_eq (x0 : (⟨S100000x128, .f32⟩ : BufTy).Contents (Elt Ideal)) (x1 : (⟨S2x3200000, .i32⟩ : BufTy).Contents (Elt Ideal)) (x2 : (⟨S128x64, .f32⟩ : BufTy).Contents (Elt Ideal)) (x3 : (⟨S64, .f32⟩ : BufTy).Contents (Elt Ideal)) :
    val_main_v47 (F := Ideal) x0 x1 x2 x3 = Spec.biasRelu (val_main_v43 (F := Ideal) x0 x1 x2) x3 := by
  funext i
  rw [val_main_v47_apply, val_main_v46_apply, val_main_v45_apply, val_main_v44_apply, val_main_call1_v0_apply, val_main_call1_cst_apply]
  generalize val_main_v43 (F := Ideal) x0 x1 x2 = y
  unfold Spec.biasRelu
  have eb : idx_main_v44 (idx_main_v45 i) = ix1 (n := 64) ⟨(i 1).val, (i 1).isLt⟩ :=
    funext fun a => by match a with | ⟨0, _⟩ => rfl
  rw [eb]
  rfl

/-- The second product is the rows of the first layer's output times the second weight. -/
theorem v48_eq (x0 : (⟨S100000x128, .f32⟩ : BufTy).Contents (Elt Ideal)) (x1 : (⟨S2x3200000, .i32⟩ : BufTy).Contents (Elt Ideal)) (x2 : (⟨S128x64, .f32⟩ : BufTy).Contents (Elt Ideal)) (x3 : (⟨S64, .f32⟩ : BufTy).Contents (Elt Ideal)) (x4 : (⟨S64x64, .f32⟩ : BufTy).Contents (Elt Ideal)) :
    val_main_v48 (F := Ideal) x0 x1 x2 x3 x4 = Spec.rowsTimes (K := 64) (P := 64) (val_main_v47 (F := Ideal) x0 x1 x2 x3) x4 := by
  funext i
  rw [val_main_v48_apply]
  generalize val_main_v47 (F := Ideal) x0 x1 x2 x3 = y
  unfold Spec.rowsTimes
  refine Finset.sum_congr rfl fun k _ => ?_
  have el : lidx_main_v48 i k = ix2 (n0 := 100000) (n1 := 64) ⟨(i 0).val, (i 0).isLt⟩ k :=
    funext fun a => by match a with | ⟨0, _⟩ => rfl | ⟨1, _⟩ => rfl
  have er : ridx_main_v48 i k = ix2 (n0 := 64) (n1 := 64) k ⟨(i 1).val, (i 1).isLt⟩ :=
    funext fun a => by match a with | ⟨0, _⟩ => rfl | ⟨1, _⟩ => rfl
  rw [el, er]

/-- The second layer's bias and positive part. -/
theorem v88_eq (x0 : (⟨S100000x128, .f32⟩ : BufTy).Contents (Elt Ideal)) (x1 : (⟨S2x3200000, .i32⟩ : BufTy).Contents (Elt Ideal)) (x2 : (⟨S128x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) :
    val_main_v88 (F := Ideal) x0 x1 x2 x3 x4 x5 = Spec.biasRelu (val_main_v84 (F := Ideal) x0 x1 x2 x3 x4) x5 := by
  funext i
  rw [val_main_v88_apply, val_main_v87_apply, val_main_v86_apply, val_main_v85_apply, val_main_call3_v0_apply, val_main_call3_cst_apply]
  generalize val_main_v84 (F := Ideal) x0 x1 x2 x3 x4 = y
  unfold Spec.biasRelu
  have eb : idx_main_v85 (idx_main_v86 i) = ix1 (n := 64) ⟨(i 1).val, (i 1).isLt⟩ :=
    funext fun a => by match a with | ⟨0, _⟩ => rfl
  rw [eb]
  rfl

/-- The first head: the product with its one-column weight plus its one bias entry (the bias array has a single index). -/
theorem v92_eq (x0 : (⟨S100000x128, .f32⟩ : BufTy).Contents (Elt Ideal)) (x1 : (⟨S2x3200000, .i32⟩ : BufTy).Contents (Elt Ideal)) (x2 : (⟨S128x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S64x1, .f32⟩ : BufTy).Contents (Elt Ideal)) (x7 : (⟨S1, .f32⟩ : BufTy).Contents (Elt Ideal)) :
    val_main_v92 (F := Ideal) x0 x1 x2 x3 x4 x5 x6 x7 = Spec.headOut (val_main_v88 (F := Ideal) x0 x1 x2 x3 x4 x5) x6 x7 := by
  funext i
  rw [val_main_v92_apply, val_main_v89_apply, val_main_v91_apply, val_main_v90_apply]
  generalize val_main_v88 (F := Ideal) x0 x1 x2 x3 x4 x5 = y
  unfold Spec.headOut
  have eb : idx_main_v90 (idx_main_v91 i) = ix1 (n := 1) ⟨(i 1).val, (i 1).isLt⟩ :=
    funext fun a => by
      match a with
      | ⟨0, _⟩ => exact Fin.ext (by have h := idx2_lt1 i; show 0 = (i 1).val; omega)
  have es : ∀ k : Fin 64, y (lidx_main_v89 i k) * x6 (ridx_main_v89 i k)
      = y (ix2 (n0 := 100000) (n1 := 64) ⟨(i 0).val, (i 0).isLt⟩ k) * x6 (ix2 (n0 := 64) (n1 := 1) k ⟨(i 1).val, (i 1).isLt⟩) := fun k => by
    have el : lidx_main_v89 i k = ix2 (n0 := 100000) (n1 := 64) ⟨(i 0).val, (i 0).isLt⟩ k :=
      funext fun a => by match a with | ⟨0, _⟩ => rfl | ⟨1, _⟩ => rfl
    have er : ridx_main_v89 i k = ix2 (n0 := 64) (n1 := 1) k ⟨(i 1).val, (i 1).isLt⟩ :=
      funext fun a => by match a with | ⟨0, _⟩ => rfl | ⟨1, _⟩ => rfl
    rw [el, er]
  rw [eb, Finset.sum_congr rfl fun k _ => es k]
  rfl

/-- The second head, the same with its own weight and bias. -/
theorem v96_eq (x0 : (⟨S100000x128, .f32⟩ : BufTy).Contents (Elt Ideal)) (x1 : (⟨S2x3200000, .i32⟩ : BufTy).Contents (Elt Ideal)) (x2 : (⟨S128x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x8 : (⟨S64x1, .f32⟩ : BufTy).Contents (Elt Ideal)) (x9 : (⟨S1, .f32⟩ : BufTy).Contents (Elt Ideal)) :
    val_main_v96 (F := Ideal) x0 x1 x2 x3 x4 x5 x8 x9 = Spec.headOut (val_main_v88 (F := Ideal) x0 x1 x2 x3 x4 x5) x8 x9 := by
  funext i
  rw [val_main_v96_apply, val_main_v93_apply, val_main_v95_apply, val_main_v94_apply]
  generalize val_main_v88 (F := Ideal) x0 x1 x2 x3 x4 x5 = y
  unfold Spec.headOut
  have eb : idx_main_v94 (idx_main_v95 i) = ix1 (n := 1) ⟨(i 1).val, (i 1).isLt⟩ :=
    funext fun a => by
      match a with
      | ⟨0, _⟩ => exact Fin.ext (by have h := idx2_lt1 i; show 0 = (i 1).val; omega)
  have es : ∀ k : Fin 64, y (lidx_main_v93 i k) * x8 (ridx_main_v93 i k)
      = y (ix2 (n0 := 100000) (n1 := 64) ⟨(i 0).val, (i 0).isLt⟩ k) * x8 (ix2 (n0 := 64) (n1 := 1) k ⟨(i 1).val, (i 1).isLt⟩) := fun k => by
    have el : lidx_main_v93 i k = ix2 (n0 := 100000) (n1 := 64) ⟨(i 0).val, (i 0).isLt⟩ k :=
      funext fun a => by match a with | ⟨0, _⟩ => rfl | ⟨1, _⟩ => rfl
    have er : ridx_main_v93 i k = ix2 (n0 := 64) (n1 := 1) k ⟨(i 1).val, (i 1).isLt⟩ :=
      funext fun a => by match a with | ⟨0, _⟩ => rfl | ⟨1, _⟩ => rfl
    rw [el, er]
  rw [eb, Finset.sum_congr rfl fun k _ => es k]
  rfl

/-- The second layer's output is the network's second layer applied to its first. -/
theorem v88_layers (x0 : (⟨S100000x128, .f32⟩ : BufTy).Contents (Elt Ideal)) (x1 : (⟨S2x3200000, .i32⟩ : BufTy).Contents (Elt Ideal)) (x2 : (⟨S128x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) :
    val_main_v88 (F := Ideal) x0 x1 x2 x3 x4 x5 = Model.layer x1 (Model.layer x1 x0 x2 x3) x4 x5 := by
  rw [v88_eq, agg84_eq, v48_eq, v47_eq, agg43_eq, v7_eq]
  rfl

/-- The reference's first result, as a function of its arguments, is the network's first head. -/
theorem out0_eq (x0 : (⟨S100000x128, .f32⟩ : BufTy).Contents (Elt Ideal)) (x1 : (⟨S2x3200000, .i32⟩ : BufTy).Contents (Elt Ideal))
    (x2 : (⟨S128x64, .f32⟩ : BufTy).Contents (Elt Ideal)) (x3 : (⟨S64, .f32⟩ : BufTy).Contents (Elt Ideal))
    (x4 : (⟨S64x64, .f32⟩ : BufTy).Contents (Elt Ideal)) (x5 : (⟨S64, .f32⟩ : BufTy).Contents (Elt Ideal))
    (x6 : (⟨S64x1, .f32⟩ : BufTy).Contents (Elt Ideal)) (x7 : (⟨S1, .f32⟩ : BufTy).Contents (Elt Ideal)) :
    val_main_v92 (F := Ideal) x0 x1 x2 x3 x4 x5 x6 x7 = Model.gcnOut x0 x1 x2 x3 x4 x5 x6 x7 := by
  rw [v92_eq, v88_layers]
  rfl

/-- The reference's second result is the network's second head. -/
theorem out1_eq (x0 : (⟨S100000x128, .f32⟩ : BufTy).Contents (Elt Ideal)) (x1 : (⟨S2x3200000, .i32⟩ : BufTy).Contents (Elt Ideal))
    (x2 : (⟨S128x64, .f32⟩ : BufTy).Contents (Elt Ideal)) (x3 : (⟨S64, .f32⟩ : BufTy).Contents (Elt Ideal))
    (x4 : (⟨S64x64, .f32⟩ : BufTy).Contents (Elt Ideal)) (x5 : (⟨S64, .f32⟩ : BufTy).Contents (Elt Ideal))
    (x8 : (⟨S64x1, .f32⟩ : BufTy).Contents (Elt Ideal)) (x9 : (⟨S1, .f32⟩ : BufTy).Contents (Elt Ideal)) :
    val_main_v96 (F := Ideal) x0 x1 x2 x3 x4 x5 x8 x9 = Model.gcnOut x0 x1 x2 x3 x4 x5 x8 x9 := by
  rw [v96_eq, v88_layers]
  rfl

end Cert.ReferenceIdeal.RefValue

end
-- ==== Proof.lean ====
/-
  The kernel — a two-layer graph convolution whose five dense stages (two matrix products, two "add the bias row and take the
  positive part", one two-column head) run as tiled regions, with the normalised neighbourhood sums left to host operations — and
  the reference — the same network as plain host operations — compute, over the extended reals, the same two results:
      relu (A (relu (A (x·W1) + b1) · W2) + b2) · W_head + b_head        for the two heads,
  where A is the normalised neighbourhood sum of the graph (the same composition of host operations in both programs, never
  opened). The dense stages agree index by index: a tile's product into a zero accumulator is the row-by-column sum (the casts to
  bf16 are the identity on the reals), the tiles cover the 100000 rows, and the fused two-column head read one column at a time
  is the reference's separate head. Only the order and grouping of sums differ, so no finiteness of the inputs is used.
  The three frames: the two kernel programs by their generated frame proofs, the reference by its run with the results dropped.
  The idealization rewrote no operation, so `preserves` has nothing to state.
-/
import proofs.«101185_j16647293239617_1_alg».proof.Defs
import proofs.«101185_j16647293239617_1_alg».proof.Proof.Gen.Kernel
import proofs.«101185_j16647293239617_1_alg».proof.Proof.Gen.Kernel.Skeleton
import proofs.«101185_j16647293239617_1_alg».proof.Proof.Gen.Kernel.Launch
import proofs.«101185_j16647293239617_1_alg».proof.Proof.Gen.Kernel.Points
import proofs.«101185_j16647293239617_1_alg».proof.Proof.Gen.Kernel.Frame
import proofs.«101185_j16647293239617_1_alg».proof.Proof.Gen.KernelIdeal
import proofs.«101185_j16647293239617_1_alg».proof.Proof.Gen.KernelIdeal.Skeleton
import proofs.«101185_j16647293239617_1_alg».proof.Proof.Gen.KernelIdeal.Launch
import proofs.«101185_j16647293239617_1_alg».proof.Proof.Gen.KernelIdeal.Points
import proofs.«101185_j16647293239617_1_alg».proof.Proof.Gen.KernelIdeal.Frame
import proofs.«101185_j16647293239617_1_alg».proof.Proof.Gen.ReferenceIdeal
import proofs.«101185_j16647293239617_1_alg».proof.Proof.Gen.Pre_finite_inputs
import proofs.«101185_j16647293239617_1_alg».proof.Proof.RunNamed
import proofs.«101185_j16647293239617_1_alg».proof.Proof.KernelValue
import proofs.«101185_j16647293239617_1_alg».proof.Proof.RefRun
import proofs.«101185_j16647293239617_1_alg».proof.Proof.RefRead
import proofs.«101185_j16647293239617_1_alg».proof.Proof.RefValue
import Idealize.ShloMosaic.Adequacy
import Idealize.ShloMosaic.Init

noncomputable section

namespace Cert.Proof

open Idealize.ShloMosaic Idealize.SL.Sem

/-- The word-level kernel runs and leaves its arguments: its generated frame. -/
theorem frame_kernel : Cert.frame_Kernel := fun m ρ _ => Cert.Kernel.Gen.frame m ρ

/-- The idealized kernel runs and leaves its arguments: its generated frame. -/
theorem frame_kernelIdeal : Cert.frame_KernelIdeal := fun m ρ _ => Cert.KernelIdeal.Gen.frame m ρ

/-- The reference runs and leaves its arguments: its run, the two results dropped. -/
theorem frame_referenceIdeal : Cert.frame_ReferenceIdeal := fun m ρ _ =>
  (θ_run Cert.ReferenceIdeal.defs _ _).mono (fun _ h c => (h c).2.2) (Cert.ReferenceIdeal.ValueP.run (F := Ideal) m ρ)

/-- From memories that agree on the arguments both programs end with the network's two heads as their results. -/
theorem algebraic : Cert.algebraic_KernelIdeal_ReferenceIdeal := by
  intro m ρ m' ρ' _ hagree
  refine ⟨fun c => Cert.Model.gcnOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    fun c => Cert.Model.gcnOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · refine (θ_run Cert.KernelIdeal.defs _ _).mono (fun r h c => ?_) (Cert.KernelIdeal.GenP.run_named (F := Ideal) m ρ)
    obtain ⟨h0, h1, hargs⟩ := h c
    exact ⟨h0.trans (Cert.KernelIdeal.KValue.out0_eq m ρ c), h1.trans (Cert.KernelIdeal.KValue.out1_eq m ρ c), hargs⟩
  · refine (θ_run Cert.ReferenceIdeal.defs _ _).mono (fun r h c => ?_) (Cert.ReferenceIdeal.ValueP.run (F := Ideal) m' ρ')
    obtain ⟨h0, h1, hargs⟩ := h c
    obtain ⟨a0, a1, a2, a3, a4, a5, a6, a7, a8, a9⟩ := hagree c
    refine ⟨h0.trans ?_, h1.trans ?_, hargs⟩
    · rw [Cert.ReferenceIdeal.ReadP.val_main_v92_eq, Cert.ReferenceIdeal.RefValue.out0_eq, a0, a1, a2, a3, a4, a5, a6, a7]
    · rw [Cert.ReferenceIdeal.ReadP.val_main_v96_eq, Cert.ReferenceIdeal.RefValue.out1_eq, a0, a1, a2, a3, a4, a5, a8, a9]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
